-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part3 {F : FTy → Type} [FloatOps F] (main_arg1 : IVec S2x640000 32) (main_v48 : IVec S_ 1) (main_v50 : IVec S2x640000 1) : IVec S_ 1 :=
  let main_c_19 : IVec S_ 32 := constantI S_ 32 50000#32
  let main_v51 : IVec S2x640000 32 := broadcastInDim S2x640000 ![] bcast_S_S2x640000 main_c_19
  let main_v52 : IVec S2x640000 1 := cmpi .slt main_arg1 main_v51
  let main_v53 : IVec S2x640000 1 := andi main_v50 main_v52
  let main_c_20 : IVec S_ 1 := constantI S_ 1 1#1
  let main_v54 : IVec S_ 1 := (fun x v => Host.reduce IntOp.andi x v reducesTo_S2x640000_S_d0_1 h_S_) main_v53 main_c_20
  let main_v55 : IVec S_ 1 := andi main_v48 main_v54
  main_v55

def fn_part2 {F : FTy → Type} [FloatOps F] (main_arg1 : IVec S2x640000 32) (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S2x640000 32 := broadcastInDim S2x640000 ![] bcast_S_S2x640000 main_c_18
  let main_v50 : IVec S2x640000 1 := cmpi .sge main_arg1 main_v49
  fn_part3 (F := F) main_arg1 main_v48 main_v50

def fn_part1 {F : FTy → Type} [FloatOps F] (main_arg1 : IVec S2x640000 32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x640000 32) (main_arg2 : FVec F S640000x128 .f32) (main_arg3 : FVec F S384x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S1x128 : Shape := ⟨2, ![1, 128]⟩
abbrev S5120x128 : Shape := ⟨2, ![5120, 128]⟩
abbrev S50000 : Shape := ⟨1, ![50000]⟩
abbrev S50000x1 : Shape := ⟨2, ![50000, 1]⟩
abbrev S2000x128 : Shape := ⟨2, ![2000, 128]⟩

abbrev nBuf : Space → Nat
  | .hbm => 108
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S1, .i32⟩
  | .hbm, ⟨24, _⟩ => ⟨S_, .i32⟩
  | .hbm, ⟨25, _⟩ => ⟨S640000x1, .i32⟩
  | .hbm, ⟨26, _⟩ => ⟨S640000x1, .i1⟩
  | .hbm, ⟨27, _⟩ => ⟨S1x1, .i32⟩
  | .hbm, ⟨28, _⟩ => ⟨S640000x1, .i32⟩
  | .hbm, ⟨29, _⟩ => ⟨S640000x1, .i1⟩
  | .hbm, ⟨30, _⟩ => ⟨S640000x1, .i1⟩
  | .hbm, ⟨31, _⟩ => ⟨S_, .i1⟩
  | .hbm, ⟨32, _⟩ => ⟨S640000, .i1⟩
  | .hbm, ⟨33, _⟩ => ⟨S640000x128, .f32⟩
  | .hbm, ⟨34, _⟩ => ⟨S640000x128, .i1⟩
  | .hbm, ⟨35, _⟩ => ⟨S_, .f32⟩
  | .hbm, ⟨36, _⟩ => ⟨S640000x128, .f32⟩
  | .hbm, ⟨37, _⟩ => ⟨S640000x128, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S1, .i32⟩
  | .hbm, ⟨47, _⟩ => ⟨S_, .i32⟩
  | .hbm, ⟨48, _⟩ => ⟨S640000x1, .i32⟩
  | .hbm, ⟨49, _⟩ => ⟨S640000x1, .i1⟩
  | .hbm, ⟨50, _⟩ => ⟨S1x1, .i32⟩
  | .hbm, ⟨51, _⟩ => ⟨S640000x1, .i32⟩
  | .hbm, ⟨52, _⟩ => ⟨S640000x1, .i1⟩
  | .hbm, ⟨53, _⟩ => ⟨S640000x1, .i1⟩
  | .hbm, ⟨54, _⟩ => ⟨S_, .i1⟩
  | .hbm, ⟨55, _⟩ => ⟨S640000, .i1⟩
  | .hbm, ⟨56, _⟩ => ⟨S640000x128, .f32⟩
  | .hbm, ⟨57, _⟩ => ⟨S640000x128, .i1⟩
  | .hbm, ⟨58, _⟩ => ⟨S_, .f32⟩
  | .hbm, ⟨59, _⟩ => ⟨S640000x128, .f32⟩
  | .hbm, ⟨60, _⟩ => ⟨S640000x128, .f32⟩
  | .hbm, ⟨61, _⟩ => ⟨S640000x128, .bf16⟩
  | .hbm, ⟨62, _⟩ => ⟨S640000x128, .bf16⟩
  | .hbm, ⟨63, _⟩ => ⟨S640000x128, .bf16⟩
  | .hbm, ⟨64, _⟩ => ⟨S128x128, .f32⟩
  | .hbm, ⟨65, _⟩ => ⟨S128x128, .bf16⟩
  | .hbm, ⟨66, _⟩ => ⟨S128x128, .f32⟩
  | .hbm, ⟨67, _⟩ => ⟨S128x128, .bf16⟩
  | .hbm, ⟨68, _⟩ => ⟨S128x128, .f32⟩
  | .hbm, ⟨69, _⟩ => ⟨S128x128, .bf16⟩
  | .hbm, ⟨70, _⟩ => ⟨S128x128, .bf16⟩
  | .hbm, ⟨71, _⟩ => ⟨S1x128, .f32⟩
  | .hbm, ⟨72, _⟩ => ⟨S1x128, .f32⟩
  | .hbm, ⟨73, _⟩ => ⟨S640000x128, .f32⟩
  | .hbm, ⟨74, _⟩ => ⟨S_, .f32⟩
  | .hbm, ⟨75, _⟩ => ⟨S50000x128, .f32⟩
  | .hbm, ⟨76, _⟩ => ⟨S640000x1, .i32⟩
  | .hbm, ⟨77, _⟩ => ⟨S50000x128, .f32⟩
  | .hbm, ⟨78, _⟩ => ⟨S_, .f32⟩
  | .hbm, ⟨79, _⟩ => ⟨S640000, .f32⟩
  | .hbm, ⟨80, _⟩ => ⟨S_, .f32⟩
  | .hbm, ⟨81, _⟩ => ⟨S50000, .f32⟩
  | .hbm, ⟨82, _⟩ => ⟨S640000x1, .i32⟩
  | .hbm, ⟨83, _⟩ => ⟨S50000, .f32⟩
  | .hbm, ⟨84, _⟩ => ⟨S50000x1, .f32⟩
  | .hbm, ⟨85, _⟩ => ⟨S_, .f32⟩
  | .hbm, ⟨86, _⟩ => ⟨S50000x1, .f32⟩
  | .hbm, ⟨87, _⟩ => ⟨S50000x1, .i1⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .i1⟩
  | .hbm, ⟨97, _⟩ => ⟨S50000x128, .f32⟩
  | .hbm, ⟨98, _⟩ => ⟨S50000x128, .bf16⟩
  | .hbm, ⟨99, _⟩ => ⟨S50000x128, .bf16⟩
  | .hbm, ⟨100, _⟩ => ⟨S128x128, .f32⟩
  | .hbm, ⟨101, _⟩ => ⟨S128x128, .bf16⟩
  | .hbm, ⟨102, _⟩ => ⟨S128x128, .f32⟩
  | .hbm, ⟨103, _⟩ => ⟨S128x128, .bf16⟩
  | .hbm, ⟨104, _⟩ => ⟨S128x128, .bf16⟩
  | .hbm, ⟨105, _⟩ => ⟨S1x128, .f32⟩
  | .hbm, ⟨106, _⟩ => ⟨S1x128, .f32⟩
  | .hbm, ⟨107, _⟩ => ⟨S50000x128, .f32⟩
  | .local _ .vmem, ⟨0, _⟩ => ⟨S5120x128, .bf16⟩
  | .local _ .vmem, ⟨1, _⟩ => ⟨S5120x128, .bf16⟩
  | .local _ .vmem, ⟨2, _⟩ => ⟨S5120x128, .bf16⟩
  | .local _ .vmem, ⟨3, _⟩ => ⟨S5120x128, .bf16⟩
  | .local _ .vmem, ⟨4, _⟩ => ⟨S5120x128, .bf16⟩
  | .local _ .vmem, ⟨5, _⟩ => ⟨S5120x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S5120x128, .f32⟩
  | .local _ .vmem, ⟨13, _⟩ => ⟨S5120x128, .f32⟩
  | .local _ .vmem, ⟨14, _⟩ => ⟨S2000x128, .bf16⟩
  | .local _ .vmem, ⟨15, _⟩ => ⟨S2000x128, .bf16⟩
  | .local _ .vmem, ⟨16, _⟩ => ⟨S2000x128, .bf16⟩
  | .local _ .vmem, ⟨17, _⟩ => ⟨S2000x128, .bf16⟩
  | .local _ .vmem, ⟨18, _⟩ => ⟨S128x128, .bf16⟩
  | .local _ .vmem, ⟨19, _⟩ => ⟨S128x128, .bf16⟩
  | .local _ .vmem, ⟨20, _⟩ => ⟨S1x128, .f32⟩
  | .local _ .vmem, ⟨21, _⟩ => ⟨S128x128, .bf16⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_0 : Ref sig .tc := ⟨.hbm, 78, rfl⟩
abbrev main_v22 : Ref sig .tc := ⟨.hbm, 79, rfl⟩
abbrev main_cst_1 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_cst_2 : Ref sig .tc := ⟨.hbm, 85, rfl⟩
abbrev main_v27 : Ref sig .tc := ⟨.hbm, 86, rfl⟩
abbrev main_v28 : Ref sig .tc := ⟨.hbm, 87, rfl⟩
abbrev main_cst_3 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_cst_4 : Ref sig .tc := ⟨.hbm, 94, rfl⟩
abbrev main_v34 : Ref sig .tc := ⟨.hbm, 95, rfl⟩
abbrev main_call2_v0 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5120x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bitsLt_bf16_f32 : FTy.bits .bf16 < FTy.bits .f32
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5120x128 : S1x128.Broadcasts S5120x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  gather_S50000x128_S640000x1_S640000x128_1_0_n_n_0_1_1128_wf : GatherDims.WF S50000x128 S640000x1 S640000x128 [1] [0] [] [0] [] 1 ![1, 128]
  dot_S5120x128_S128x128_S5120x128_1_0_0_1_n_n_wf : DotDims.WF S5120x128 S128x128 S5120x128 [1] [0] [0] [1] [] []
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S640000x128.size a
  hwx0_0 : ∀ i : grid0.Coords, EltTy.bits .bf16 = 32 ∨ (Rect.block (s := S640000x128) S5120x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S640000x128.size a
  hwx0_1 : ∀ i : grid0.Coords, EltTy.bits .bf16 = 32 ∨ (Rect.block (s := S640000x128) S5120x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x128.size a ≤ S640000x128.size a
  hwx0_2 : ∀ i : grid0.Coords, EltTy.bits .bf16 = 32 ∨ (Rect.block (s := S640000x128) S5120x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5120x128.size a ≤ S640000x128.size a
  hwx0_9 : ∀ i : grid0.Coords, EltTy.bits .f32 = 32 ∨ (Rect.block (s := S640000x128) S5120x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v6) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5120x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5120x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S5120x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v36) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000x128 : Shape := ⟨2, ![640000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S50000 : Shape := ⟨1, ![50000]⟩
abbrev S50000x1 : Shape := ⟨2, ![50000, 1]⟩
abbrev S50000x256 : Shape := ⟨2, ![50000, 256]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x128, .f32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S640000x384, .f32⟩
  | .hbm, ⟨34, _⟩ => ⟨S640000x128, .f32⟩
  | .hbm, ⟨35, _⟩ => ⟨S1x128, .f32⟩
  | .hbm, ⟨36, _⟩ => ⟨S640000x128, .f32⟩
  | .hbm, ⟨37, _⟩ => ⟨S640000x128, .f32⟩
  | .hbm, ⟨38, _⟩ => ⟨S_, .f32⟩
  | .hbm, ⟨39, _⟩ => ⟨S640000x128, .f32⟩
  | .hbm, ⟨40, _⟩ => ⟨S640000x128, .f32⟩
  | .hbm, ⟨41, _⟩ => ⟨S640000x128, .f32⟩
  | .hbm, ⟨42, _⟩ => ⟨S1x128, .f32⟩
  | .hbm, ⟨43, _⟩ => ⟨S640000x128, .f32⟩
  | .hbm, ⟨44, _⟩ => ⟨S640000x128, .f32⟩
  | .hbm, ⟨45, _⟩ => ⟨S_, .f32⟩
  | .hbm, ⟨46, _⟩ => ⟨S50000x128, .f32⟩
  | .hbm, ⟨47, _⟩ => ⟨S640000x1, .i32⟩
  | .hbm, ⟨48, _⟩ => ⟨S50000x128, .f32⟩
  | .hbm, ⟨49, _⟩ => ⟨S_, .f32⟩
  | .hbm, ⟨50, _⟩ => ⟨S640000, .f32⟩
  | .hbm, ⟨51, _⟩ => ⟨S_, .f32⟩
  | .hbm, ⟨52, _⟩ => ⟨S50000, .f32⟩
  | .hbm, ⟨53, _⟩ => ⟨S640000x1, .i32⟩
  | .hbm, ⟨54, _⟩ => ⟨S50000, .f32⟩
  | .hbm, ⟨55, _⟩ => ⟨S50000x1, .f32⟩
  | .hbm, ⟨56, _⟩ => ⟨S_, .f32⟩
  | .hbm, ⟨57, _⟩ => ⟨S50000x1, .f32⟩
  | .hbm, ⟨58, _⟩ => ⟨S50000x1, .i1⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .i1⟩
  | .hbm, ⟨68, _⟩ => ⟨S50000x128, .f32⟩
  | .hbm, ⟨69, _⟩ => ⟨S50000x256, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_call1_v0 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call2_cst : Ref sig .tc := ⟨.hbm, 74, rfl⟩
abbrev main_call2_v0 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  dot_S640000x384_S384x128_S640000x128_1_0_0_1_n_n_wf : DotDims.WF S640000x384 S384x128 S640000x128 [1] [0] [0] [1] [] []
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.IndexRange.lean ====
/-
  The integer side of the certificate.

  (1) The precondition's last conjunct says that every entry of the 2 x 640000 edge list is a node number:
      0 ≤ e < 50000, read signed. Decoded here entry by entry (`pre_entries`), and then for the two rows the program
      slices out of the list and reshapes to vectors (`endpoints_inRange`): a slice and a reshape only READ their operand
      at some index, so each of their entries is an entry of the list.

  (2) The take. Its index column is the row's entries with the negative ones moved up by 50000 (`wrapIdx`); its mask
      says, row by row, that the moved index lies in [0, 49999], and is spread along the 128 features (`takeMask`).
      On entries already in [0, 50000) nothing is moved (`wrap_word`), both compares hold, the and-reduction of the
      one-entry rows is 1, so the mask is 1 everywhere and the select returns the gathered rows (`takeMask_select`).
-/
import proofs.«408071_j20572893348184_1_alg».proof.KernelIdeal
import proofs.«408071_j20572893348184_1_alg».proof.Pre_finite_inputs
import Idealize.ShloMosaic.Lib.ReduceAll

noncomputable section

namespace Cert.GraphConv

open Idealize.ShloMosaic Cert.KernelIdeal Cert.KernelIdeal.Facts₀ Cert.KernelIdeal.Facts

variable [Cert.KernelIdeal.Facts]

/-! ## Words -/

theorem toInt_zero32 : (0#32 : BitVec 32).toInt = 0 := by decide
theorem toInt_50000 : (50000#32 : BitVec 32).toInt = 50000 := by decide
theorem toInt_49999 : (49999#32 : BitVec 32).toInt = 49999 := by decide

/-- A word already in [0, 50000) is not negative, so the take's "move negatives up by 50000" leaves it alone. -/
theorem wrap_word (x : BitVec 32) (hx : 0 ≤ x.toInt ∧ x.toInt < 50000) :
    Scalar.select (IntOp.cmpi .slt x 0#32) (IntOp.addi x 50000#32) x = x := by
  unfold Scalar.select
  rw [if_neg]
  intro hc
  have h := IntOp.cmpi_slt.1 hc
  rw [toInt_zero32] at h
  omega

/-- A word in [0, 50000) passes the take's two range tests, 0 ≤ x and x ≤ 49999. -/
theorem range_word (x : BitVec 32) (hx : 0 ≤ x.toInt ∧ x.toInt < 50000) :
    IntOp.andi (IntOp.cmpi .sge x 0#32) (IntOp.cmpi .sle x 49999#32) = 1#1 := by
  rw [IntOp.andi_eq_one, IntOp.cmpi_sge, IntOp.cmpi_sle, toInt_zero32, toInt_49999]
  omega

/-- A left fold by `and` from 1 over words that are all 1 is 1. -/
theorem foldl_andi_all_one {ι : Type} (f : ι → BitVec 1) (hf : ∀ n, f n = 1#1) :
    ∀ l : List ι, l.foldl (fun r n => IntOp.andi r (f n)) 1#1 = 1#1
  | [] => rfl
  | a :: l => by
    have e : IntOp.andi (1#1) (f a) = 1#1 := by rw [hf a]; decide
    rw [List.foldl_cons, e]
    exact foldl_andi_all_one f hf l

/-! ## The take -/

/-- The index column the take hands to the gather: negative entries moved up by 50000, then made a column. -/
def wrapIdx (r : IVec S640000 32) : IVec S640000x1 32 :=
  broadcastInDim S640000x1 ![0] bcast_S640000_S640000x1_0
    (select (cmpi .slt r (broadcastInDim S640000 ![] bcast_S_S640000 (constantI S_ 32 0#32)))
      (addi r (broadcastInDim S640000 ![] bcast_S_S640000 (constantI S_ 32 50000#32))) r)

/-- The take's mask of in-range rows, broadcast along the 128 features. -/
def takeMask (r : IVec S640000 32) : IVec S640000x128 1 :=
  broadcastInDim S640000x128 ![0] bcast_S640000_S640000x128_0
    (Host.reduce IntOp.andi
      (andi (cmpi .sge (wrapIdx r) (broadcastInDim S640000x1 ![] bcast_S_S640000x1 (constantI S_ 32 0#32)))
            (cmpi .sle (wrapIdx r) (broadcastInDim S640000x1 ![0, 1] bcast_S1x1_S640000x1_0_1 (broadcastInDim S1x1 ![1] bcast_S1_S1x1_1 (constantI S1 32 49999#32)))))
      (constantI S_ 1 1#1) reducesTo_S640000x1_S640000_d1 h_S_)

/-- Every entry of the index column is an entry of `r`, unmoved: still in [0, 50000). -/
theorem wrapIdx_inRange (r : IVec S640000 32) (hr : ∀ i : S640000.Idx, 0 ≤ (r i).toInt ∧ (r i).toInt < 50000)
    (i : S640000x1.Idx) : 0 ≤ (wrapIdx r i).toInt ∧ (wrapIdx r i).toInt < 50000 := by
  -- the column's entry at i is the select at the row of i
  obtain ⟨q, e⟩ : ∃ q : S640000.Idx,
      wrapIdx r i = Scalar.select (IntOp.cmpi .slt (r q) 0#32) (IntOp.addi (r q) 50000#32) (r q) := ⟨_, rfl⟩
  rw [e, wrap_word _ (hr q)]
  exact hr q

/-- Both range tests hold at every entry of the column. -/
theorem rangeTests_one (r : IVec S640000 32) (hr : ∀ i : S640000.Idx, 0 ≤ (r i).toInt ∧ (r i).toInt < 50000)
    (i : S640000x1.Idx) :
    andi (cmpi .sge (wrapIdx r) (broadcastInDim S640000x1 ![] bcast_S_S640000x1 (constantI S_ 32 0#32)))
         (cmpi .sle (wrapIdx r) (broadcastInDim S640000x1 ![0, 1] bcast_S1x1_S640000x1_0_1 (broadcastInDim S1x1 ![1] bcast_S1_S1x1_1 (constantI S1 32 49999#32)))) i
      = 1#1 :=
  range_word (wrapIdx r i) (wrapIdx_inRange r hr i)

/-- A broadcast only reads its operand: where every entry of the operand is `c`, so is every entry of the broadcast. -/
theorem bcast_const {α : Type} {s t : Shape} (dims : Fin s.rank → Fin t.rank) (h : s.BroadcastsInDim t dims)
    (x : s.Idx → α) (c : α) (hx : ∀ q, x q = c) (j : t.Idx) : broadcastInDim t dims h x j = c := hx _

/-- The row reduction by `and` of the two range tests is 1 at every row. -/
theorem rowAll_one (r : IVec S640000 32) (hr : ∀ i : S640000.Idx, 0 ≤ (r i).toInt ∧ (r i).toInt < 50000)
    (q : S640000.Idx) :
    Host.reduce IntOp.andi
        (andi (cmpi .sge (wrapIdx r) (broadcastInDim S640000x1 ![] bcast_S_S640000x1 (constantI S_ 32 0#32)))
              (cmpi .sle (wrapIdx r) (broadcastInDim S640000x1 ![0, 1] bcast_S1x1_S640000x1_0_1 (broadcastInDim S1x1 ![1] bcast_S1_S1x1_1 (constantI S1 32 49999#32)))))
        (constantI S_ 1 1#1) reducesTo_S640000x1_S640000_d1 h_S_ q = 1#1 := by
  rw [Host.reduce_eq_foldl]
  exact foldl_andi_all_one _ (rangeTests_one r hr) _

/-- The mask is 1 everywhere: at p it is the row reduction at the row of p. -/
theorem takeMask_one (r : IVec S640000 32) (hr : ∀ i : S640000.Idx, 0 ≤ (r i).toInt ∧ (r i).toInt < 50000)
    (p : S640000x128.Idx) : takeMask r p = 1#1 := by
  unfold takeMask
  exact bcast_const _ _ _ _ (rowAll_one r hr) p

theorem takeMask_select {α : Type} (r : IVec S640000 32) (hr : ∀ i : S640000.Idx, 0 ≤ (r i).toInt ∧ (r i).toInt < 50000)
    (G N : S640000x128.Idx → α) : select (takeMask r) G N = G := by
  funext p
  show Scalar.select (takeMask r p) (G p) (N p) = G p
  rw [takeMask_one r hr p]
  exact if_pos rfl

/-! ## The precondition, decoded -/

/-- The precondition's last conjunct, at one entry of the edge list: 0 ≤ e < 50000. -/
theorem pre_entries {F : FTy → Type} [FloatOps F] [Cert.Pre_finite_inputs.Facts]
    (a0 : FVec F S50000x128 .f32) (a1 : IVec S2x640000 32) (a2 : FVec F S640000x128 .f32) (a3 : FVec F S384x128 .f32) (a4 : FVec F S128 .f32) (a5 : FVec F S128x128 .f32) (a6 : FVec F S128 .f32) (a7 : FVec F S256x128 .f32) (a8 : FVec F S128 .f32) (a9 : FVec F S128x128 .f32) (a10 : FVec F S128 .f32)
    (h : Cert.Pre_finite_inputs.fn (F := F) a0 a1 a2 a3 a4 a5 a6 a7 a8 a9 a10 = fun _ => 1#1)
    (j : S2x640000.Idx) : 0 ≤ (a1 j).toInt ∧ (a1 j).toInt < 50000 := by
  haveI : Subsingleton Cert.Pre_finite_inputs.S_.Idx := ⟨fun a b => funext fun d => d.elim0⟩
  have h0 := congrFun h (fun d => d.elim0)
  dsimp only [Cert.Pre_finite_inputs.fn, Cert.Pre_finite_inputs.fn_part1, Cert.Pre_finite_inputs.fn_part2,
    Cert.Pre_finite_inputs.fn_part3] at h0
  -- the outermost and: its right operand is the all-reduction over the edge list
  have h1 := (IntOp.andi_eq_one.1 h0).2
  -- every entry of the reduced mask is 1
  have h2 := Host.reduce_andi_all _ _ _ _ _ h1 j
  obtain ⟨hge, hlt⟩ := IntOp.andi_eq_one.1 h2
  have hge' : (0#32 : BitVec 32).toInt ≤ (a1 j).toInt := IntOp.cmpi_sge.1 hge
  have hlt' : (a1 j).toInt < (50000#32 : BitVec 32).toInt := IntOp.cmpi_slt.1 hlt
  rw [toInt_zero32] at hge'
  rw [toInt_50000] at hlt'
  exact ⟨hge', hlt'⟩

/-- Rows 0 and 1 of the edge list, sliced out and reshaped to vectors, hold node numbers: each of their entries is an
    entry of the list. -/
theorem endpoints_inRange {F : FTy → Type} [FloatOps F] [Cert.Pre_finite_inputs.Facts]
    (a0 : FVec F S50000x128 .f32) (a1 : IVec S2x640000 32) (a2 : FVec F S640000x128 .f32) (a3 : FVec F S384x128 .f32) (a4 : FVec F S128 .f32) (a5 : FVec F S128x128 .f32) (a6 : FVec F S128 .f32) (a7 : FVec F S256x128 .f32) (a8 : FVec F S128 .f32) (a9 : FVec F S128x128 .f32) (a10 : FVec F S128 .f32)
    (h : Cert.Pre_finite_inputs.fn (F := F) a0 a1 a2 a3 a4 a5 a6 a7 a8 a9 a10 = fun _ => 1#1)
    (o : ℕ) (hs : S2x640000.Slices ![o, 0] S1x640000) :
    ∀ i : S640000.Idx, 0 ≤ ((shapeCast S640000 (extractStridedSlice S1x640000 ![o, 0] a1 hs) shapeCasts_S1x640000_S640000) i).toInt
      ∧ ((shapeCast S640000 (extractStridedSlice S1x640000 ![o, 0] a1 hs) shapeCasts_S1x640000_S640000) i).toInt < 50000 :=
  fun i => pre_entries a0 a1 a2 a3 a4 a5 a6 a7 a8 a9 a10 h _

end Cert.GraphConv

end
-- ==== Proof.Whole.lean ====
/-
  One layer of message passing on a graph, written over whole arrays.

  The graph has 50000 nodes with 128 features each and 640000 directed edges, given as a 2 x 640000 list of node numbers
  (row 0 the sources, row 1 the destinations), each edge with 128 features of its own. Every edge computes a message: a
  two-layer perceptron (384 -> 128 -> 128, the larger of the hidden value and zero in between) of its source's features,
  its destination's features and its own, laid side by side. Every node averages the messages of the edges that end in it
  (zero where none does), and a second perceptron (256 -> 128 -> 128) of the node's features beside that average gives
  the node's new features.
-/
import proofs.«408071_j20572893348184_1_alg».proof.ReferenceIdeal

noncomputable section

namespace Cert.GraphConv

open Idealize.ShloMosaic Cert.ReferenceIdeal Cert.ReferenceIdeal.Facts₀ Cert.ReferenceIdeal.Facts

variable {F : FTy → Type} [FloatOps F] [Cert.ReferenceIdeal.Facts]

/-- The sources of the edges: row 0 of the edge list as a vector. -/
def sources (E : IVec S2x640000 32) : IVec S640000 32 :=
  shapeCast S640000 (extractStridedSlice S1x640000 ![0, 0] E slices_S2x640000_S1x640000_0_0) shapeCasts_S1x640000_S640000

/-- The destinations of the edges: row 1 of the edge list as a vector. -/
def destinations (E : IVec S2x640000 32) : IVec S640000 32 :=
  shapeCast S640000 (extractStridedSlice S1x640000 ![1, 0] E slices_S2x640000_S1x640000_1_0) shapeCasts_S1x640000_S640000

/-- The features of the node each edge names: a negative number counts from the end (50000 is added), and the row
    of that number is read. -/
def nodeRows (X : FVec F S50000x128 .f32) (r : IVec S640000 32) : FVec F S640000x128 .f32 :=
  Host.gather gather_S50000x128_S640000x1_S640000x128_1_0_n_n_0_1_1128 X
    (broadcastInDim S640000x1 ![0] bcast_S640000_S640000x1_0
      (select (cmpi .slt r (broadcastInDim S640000 ![] bcast_S_S640000 (constantI S_ 32 0#32)))
        (addi r (broadcastInDim S640000 ![] bcast_S_S640000 (constantI S_ 32 50000#32))) r))

/-- The messages: for each edge, relu ([a | b | e] · W1 + b1) · W2 + b2 of its three feature rows a, b, e. -/
def messages (A B E : FVec F S640000x128 .f32) (W1 : FVec F S384x128 .f32) (b1 : FVec F S128 .f32)
    (W2 : FVec F S128x128 .f32) (b2 : FVec F S128 .f32) : FVec F S640000x128 .f32 :=
  addf (Host.dotGeneral dot_S640000x128_S128x128_S640000x128_1_0_0_1_n_n none
      (maximumf
        (addf (Host.dotGeneral dot_S640000x384_S384x128_S640000x128_1_0_0_1_n_n none
            (concatenate S640000x384 1 [⟨S640000x128, A⟩, ⟨S640000x128, B⟩, ⟨S640000x128, E⟩]
              concatenates_S640000x128_S640000x128_S640000x128_S640000x384_d1) W1)
          (broadcastInDim S640000x128 ![0, 1] bcast_S1x128_S640000x128_0_1 (broadcastInDim S1x128 ![1] bcast_S128_S1x128_1 b1)))
        (broadcastInDim S640000x128 ![] bcast_S_S640000x128 (constant S_ .f32 0x00000000#32))) W2)
    (broadcastInDim S640000x128 ![0, 1] bcast_S1x128_S640000x128_0_1 (broadcastInDim S1x128 ![1] bcast_S128_S1x128_1 b2))

/-- How many edges end in each node. -/
def inDegree (d : IVec S640000 32) : FVec F S50000 .f32 :=
  Host.scatterAdd scatter_S50000_S640000x1_S640000_n_0_0_1 (broadcastInDim S50000 ![] bcast_S_S50000 (constant S_ .f32 0x00000000#32))
    (broadcastInDim S640000x1 ![0] bcast_S640000_S640000x1_0 d)
    (broadcastInDim S640000 ![] bcast_S_S640000 (constant S_ .f32 0x3F800000#32))

/-- Each node's average of the messages that end in it: their sum over the larger of their number and one, and zero
    where there is none. -/
def average (d : IVec S640000 32) (M : FVec F S640000x128 .f32) : FVec F S50000x128 .f32 :=
  select
    (broadcastInDim S50000x128 ![0, 1] bcast_S50000x1_S50000x128_0_1
      (cmpf .ogt (broadcastInDim S50000x1 ![0] bcast_S50000_S50000x1_0 (inDegree (F := F) d))
        (broadcastInDim S50000x1 ![] bcast_S_S50000x1 (constant S_ .f32 0x00000000#32))))
    (Host.divf
      (Host.scatterAdd scatter_S50000x128_S640000x1_S640000x128_1_0_0_1
        (broadcastInDim S50000x128 ![] bcast_S_S50000x128 (constant S_ .f32 0x00000000#32))
        (broadcastInDim S640000x1 ![0] bcast_S640000_S640000x1_0 d) M)
      (broadcastInDim S50000x128 ![0, 1] bcast_S50000x1_S50000x128_0_1
        (broadcastInDim S50000x1 ![0] bcast_S50000_S50000x1_0
          (maximumf (inDegree (F := F) d) (broadcastInDim S50000 ![] bcast_S_S50000 (constant S_ .f32 0x3F800000#32))))))
    (broadcastInDim S50000x128 ![] bcast_S_S50000x128 (constant S_ .f32 0x00000000#32))

/-- The new node features: relu ([x | g] · U1 + c1) · U2 + c2 of a node's features x and its average g. -/
def update (X G : FVec F S50000x128 .f32) (U1 : FVec F S256x128 .f32) (c1 : FVec F S128 .f32)
    (U2 : FVec F S128x128 .f32) (c2 : FVec F S128 .f32) : FVec F S50000x128 .f32 :=
  addf (Host.dotGeneral dot_S50000x128_S128x128_S50000x128_1_0_0_1_n_n none
      (maximumf
        (addf (Host.dotGeneral dot_S50000x256_S256x128_S50000x128_1_0_0_1_n_n none
            (concatenate S50000x256 1 [⟨S50000x128, X⟩, ⟨S50000x128, G⟩] concatenates_S50000x128_S50000x128_S50000x256_d1) U1)
          (broadcastInDim S50000x128 ![0, 1] bcast_S1x128_S50000x128_0_1 (broadcastInDim S1x128 ![1] bcast_S128_S1x128_1 c1)))
        (broadcastInDim S50000x128 ![] bcast_S_S50000x128 (constant S_ .f32 0x00000000#32))) U2)
    (broadcastInDim S50000x128 ![0, 1] bcast_S1x128_S50000x128_0_1 (broadcastInDim S1x128 ![1] bcast_S128_S1x128_1 c2))

/-- The whole layer. -/
def layer (X : FVec F S50000x128 .f32) (E : IVec S2x640000 32) (A : FVec F S640000x128 .f32)
    (W1 : FVec F S384x128 .f32) (b1 : FVec F S128 .f32) (W2 : FVec F S128x128 .f32) (b2 : FVec F S128 .f32)
    (U1 : FVec F S256x128 .f32) (c1 : FVec F S128 .f32) (U2 : FVec F S128x128 .f32) (c2 : FVec F S128 .f32) :
    FVec F S50000x128 .f32 :=
  update X
    (average (destinations E)
      (messages (nodeRows X (sources E)) (nodeRows X (destinations E)) A W1 b1 W2 b2))
    U1 c1 U2 c2

end Cert.GraphConv

end
-- ==== Proof.HostK.lean ====
/-
  The kernel program's host stretches, read back: what the arrays the two kernels read hold when each kernel starts, as
  terms of the program's arguments. Narrowing a float's format is the identity on extended reals, so the narrowed
  operands are the arrays themselves. Under the index range of the edge list the gathers' fill mask is all ones, and the
  gathered rows are the rows of the nodes the edges name.
-/
import proofs.«408071_j20572893348184_1_alg».proof.Proof.Gen.KernelIdeal.Frame
import proofs.«408071_j20572893348184_1_alg».proof.Proof.IndexRange
import proofs.«408071_j20572893348184_1_alg».proof.Proof.Whole
import Idealize.ShloMosaic.Lib.StableHlo.Run
import Idealize.ShloMosaic.PureOps.Ideal

set_option maxRecDepth 16384

noncomputable section

namespace Cert.GraphConv

open Idealize.ShloMosaic Idealize.ShloMosaic.TcCoe Idealize.ShloMosaic.StableHlo
open Cert.KernelIdeal Cert.KernelIdeal.Gen

variable [hR : Cert.ReferenceIdeal.Facts]

/-! ## The long chains, at any float family

The gathers with their fill and the scatter-mean are compared with the whole-array spelling operation by operation; that
comparison does not depend on what a float is. -/

section AnyFloats

variable {F : FTy → Type} [FloatOps F] (m : (ℓ : Loc nD τ sig) → Buf (Elt F) ℓ) (ρ : Dev nD → PrngReg)

/-! Each stretch of host operations read over ANY contents V it starts from: the gathers' operands stay names. -/

section Stretches

variable (V : Valuation τ sig (Elt F))

theorem s0_v1 : StableHlo.after hostOps0 V (Proc.devRef .tc main_v1) = sources (V (Proc.devRef .tc main_arg1)) := by
  dsimp only [hostOps0]; after_results_simp <;> rfl

theorem s0_v3 : StableHlo.after hostOps0 V (Proc.devRef .tc main_v3) = destinations (V (Proc.devRef .tc main_arg1)) := by
  dsimp only [hostOps0]; after_results_simp <;> rfl

theorem s0_arg0 : StableHlo.after hostOps0 V (Proc.devRef .tc main_arg0) = V (Proc.devRef .tc main_arg0) := by
  dsimp only [hostOps0]; after_results_simp <;> rfl

/-- The first take: the rows of the nodes the index vector names, the fill where an index is out of range. -/
theorem s1_v4 : StableHlo.after hostOps0_1 V (Proc.devRef .tc main_v4)
    = select (takeMask (V (Proc.devRef .tc main_v1)))
        (nodeRows (F := F) (V (Proc.devRef .tc main_arg0)) (V (Proc.devRef .tc main_v1)))
        (broadcastInDim S640000x128 ![] bcast_S_S640000x128 (constant (F := F) S_ .f32 0x7FC00000#32)) := by
  dsimp only [hostOps0_1]
  after_results_simp
  all_goals (try simp only [StableHlo.TRef.ofBuf, StableHlo.TRef.toBuf, cast_eq])
  all_goals (try unfold takeMask wrapIdx nodeRows)
  all_goals rfl

theorem s1_v3 : StableHlo.after hostOps0_1 V (Proc.devRef .tc main_v3) = V (Proc.devRef .tc main_v3) := by
  dsimp only [hostOps0_1]; after_results_simp <;> rfl

theorem s1_arg0 : StableHlo.after hostOps0_1 V (Proc.devRef .tc main_arg0) = V (Proc.devRef .tc main_arg0) := by
  dsimp only [hostOps0_1]; after_results_simp <;> rfl

theorem s2_v4 : StableHlo.after hostOps0_2 V (Proc.devRef .tc main_v4) = V (Proc.devRef .tc main_v4) := by
  dsimp only [hostOps0_2]; after_results_simp <;> rfl

/-- The second take, the same over the other index vector. -/
theorem s2_v5 : StableHlo.after hostOps0_2 V (Proc.devRef .tc main_v5)
    = select (takeMask (V (Proc.devRef .tc main_v3)))
        (nodeRows (F := F) (V (Proc.devRef .tc main_arg0)) (V (Proc.devRef .tc main_v3)))
        (broadcastInDim S640000x128 ![] bcast_S_S640000x128 (constant (F := F) S_ .f32 0x7FC00000#32)) := by
  dsimp only [hostOps0_2]
  after_results_simp
  all_goals (try simp only [StableHlo.TRef.ofBuf, StableHlo.TRef.toBuf, cast_eq])
  all_goals (try unfold takeMask wrapIdx nodeRows)
  all_goals rfl

theorem s3_v6 : StableHlo.after hostOps0_3 V (Proc.devRef .tc main_v6)
    = truncf .bf16 (V (Proc.devRef .tc main_v4)) bitsLt_bf16_f32 := by
  dsimp only [hostOps0_3]; after_results_simp <;> rfl

theorem s3_v7 : StableHlo.after hostOps0_3 V (Proc.devRef .tc main_v7)
    = truncf .bf16 (V (Proc.devRef .tc main_v5)) bitsLt_bf16_f32 := by
  dsimp only [hostOps0_3]; after_results_simp <;> rfl

end Stretches

theorem W1_v1 (c : Dev nD) : W1 m ρ c (Proc.devRef .tc main_v1) = sources (m ((c : Thread nD τ).loc main_arg1)) :=
  s0_v1 (W0 m ρ c)

theorem W1_v3 (c : Dev nD) : W1 m ρ c (Proc.devRef .tc main_v3) = destinations (m ((c : Thread nD τ).loc main_arg1)) :=
  s0_v3 (W0 m ρ c)

theorem W1_arg0 (c : Dev nD) : W1 m ρ c (Proc.devRef .tc main_arg0) = m ((c : Thread nD τ).loc main_arg0) :=
  s0_arg0 (W0 m ρ c)

theorem W2_v3 (c : Dev nD) : W2 m ρ c (Proc.devRef .tc main_v3) = destinations (m ((c : Thread nD τ).loc main_arg1)) :=
  (s1_v3 (W1 m ρ c)).trans (W1_v3 m ρ c)

theorem W2_arg0 (c : Dev nD) : W2 m ρ c (Proc.devRef .tc main_arg0) = m ((c : Thread nD τ).loc main_arg0) :=
  (s1_arg0 (W1 m ρ c)).trans (W1_arg0 m ρ c)

theorem W2_v4 (c : Dev nD) : W2 m ρ c (Proc.devRef .tc main_v4)
    = select (takeMask (sources (m ((c : Thread nD τ).loc main_arg1))))
        (nodeRows (F := F) (m ((c : Thread nD τ).loc main_arg0)) (sources (m ((c : Thread nD τ).loc main_arg1))))
        (broadcastInDim S640000x128 ![] bcast_S_S640000x128 (constant (F := F) S_ .f32 0x7FC00000#32)) := by
  have h := s1_v4 (W1 m ρ c)
  rw [W1_v1, W1_arg0] at h
  exact h

theorem W3_v5 (c : Dev nD) : W3 m ρ c (Proc.devRef .tc main_v5)
    = select (takeMask (destinations (m ((c : Thread nD τ).loc main_arg1))))
        (nodeRows (F := F) (m ((c : Thread nD τ).loc main_arg0)) (destinations (m ((c : Thread nD τ).loc main_arg1))))
        (broadcastInDim S640000x128 ![] bcast_S_S640000x128 (constant (F := F) S_ .f32 0x7FC00000#32)) := by
  have h := s2_v5 (W2 m ρ c)
  rw [W2_v3, W2_arg0] at h
  exact h

/-- The gathered source rows, narrowed, with the fill for rows out of range still in place. -/
theorem sourceRows_any (c : Dev nD) : V4 m ρ c main_v6
    = truncf .bf16 (select (takeMask (sources (m ((c : Thread nD τ).loc main_arg1))))
        (nodeRows (F := F) (m ((c : Thread nD τ).loc main_arg0)) (sources (m ((c : Thread nD τ).loc main_arg1))))
        (broadcastInDim S640000x128 ![] bcast_S_S640000x128 (constant (F := F) S_ .f32 0x7FC00000#32))) bitsLt_bf16_f32 := by
  have h := s3_v6 (W3 m ρ c)
  rw [show W3 m ρ c (Proc.devRef .tc main_v4) = W2 m ρ c (Proc.devRef .tc main_v4) from s2_v4 (W2 m ρ c), W2_v4] at h
  exact h

/-- The gathered destination rows, narrowed, with the fill for rows out of range still in place. -/
theorem destinationRows_any (c : Dev nD) : V4 m ρ c main_v7
    = truncf .bf16 (select (takeMask (destinations (m ((c : Thread nD τ).loc main_arg1))))
        (nodeRows (F := F) (m ((c : Thread nD τ).loc main_arg0)) (destinations (m ((c : Thread nD τ).loc main_arg1))))
        (broadcastInDim S640000x128 ![] bcast_S_S640000x128 (constant (F := F) S_ .f32 0x7FC00000#32))) bitsLt_bf16_f32 := by
  have h := s3_v7 (W3 m ρ c)
  rw [W3_v5] at h
  exact h

/-- The averages the update kernel reads: the scatter-mean, narrowed, of what the destinations' buffer and the message
    kernel's output array hold when the message kernel has ended. -/
theorem averages_any (c : Dev nD) : V8 m ρ c main_v37
    = truncf .bf16 (average (F := F) (W5 m ρ c (Proc.devRef .tc main_v3)) (W5 m ρ c (Proc.devRef .tc main_v18))) bitsLt_bf16_f32 := by
  show StableHlo.after hostOps1_2 (StableHlo.after hostOps1_1 (StableHlo.after hostOps1 (W5 m ρ c))) (Proc.devRef .tc main_v37) = _
  dsimp only [hostOps1_2, hostOps1_1, hostOps1]; after_results_simp <;> rfl

end AnyFloats

/-- Narrowing a float's format is the identity on extended reals. -/
theorem truncf_ideal {s : Shape} {φ ψ : FTy} (x : FVec Ideal s φ) (h : ψ.bits < φ.bits) : truncf ψ x h = x := rfl

variable (m : (ℓ : Loc nD τ sig) → Buf (Elt Ideal) ℓ) (ρ : Dev nD → PrngReg)

/-- Reads a buffer of the first kernel's entry contents back to the arguments, one operation at a time. -/
local macro "entry0" : tactic =>
  `(tactic| (dsimp only [hostOps0_3, hostOps0_2, hostOps0_1, hostOps0]; after_results_simp <;> rfl))

/-! ## When the message kernel starts -/

theorem V4_v8 (c : Dev nD) : V4 m ρ c main_v8 = m ((c : Thread nD τ).loc main_arg2) := by
  show StableHlo.after hostOps0_3 (StableHlo.after hostOps0_2 (StableHlo.after hostOps0_1 (StableHlo.after hostOps0 (W0 m ρ c)))) (Proc.devRef .tc main_v8) = _
  entry0

theorem V4_v10 (c : Dev nD) : V4 m ρ c main_v10
    = extractStridedSlice S128x128 ![0, 0] (m ((c : Thread nD τ).loc main_arg3)) slices_S384x128_S128x128_0_0 := by
  show StableHlo.after hostOps0_3 (StableHlo.after hostOps0_2 (StableHlo.after hostOps0_1 (StableHlo.after hostOps0 (W0 m ρ c)))) (Proc.devRef .tc main_v10) = _
  entry0

theorem V4_v12 (c : Dev nD) : V4 m ρ c main_v12
    = extractStridedSlice S128x128 ![128, 0] (m ((c : Thread nD τ).loc main_arg3)) slices_S384x128_S128x128_128_0 := by
  show StableHlo.after hostOps0_3 (StableHlo.after hostOps0_2 (StableHlo.after hostOps0_1 (StableHlo.after hostOps0 (W0 m ρ c)))) (Proc.devRef .tc main_v12) = _
  entry0

theorem V4_v14 (c : Dev nD) : V4 m ρ c main_v14
    = extractStridedSlice S128x128 ![256, 0] (m ((c : Thread nD τ).loc main_arg3)) slices_S384x128_S128x128_256_0 := by
  show StableHlo.after hostOps0_3 (StableHlo.after hostOps0_2 (StableHlo.after hostOps0_1 (StableHlo.after hostOps0 (W0 m ρ c)))) (Proc.devRef .tc main_v14) = _
  entry0

theorem V4_v15 (c : Dev nD) : V4 m ρ c main_v15 = m ((c : Thread nD τ).loc main_arg5) := by
  show StableHlo.after hostOps0_3 (StableHlo.after hostOps0_2 (StableHlo.after hostOps0_1 (StableHlo.after hostOps0 (W0 m ρ c)))) (Proc.devRef .tc main_v15) = _
  entry0

theorem V4_v16 (c : Dev nD) : V4 m ρ c main_v16
    = shapeCast S1x128 (m ((c : Thread nD τ).loc main_arg4)) shapeCasts_S128_S1x128 := by
  show StableHlo.after hostOps0_3 (StableHlo.after hostOps0_2 (StableHlo.after hostOps0_1 (StableHlo.after hostOps0 (W0 m ρ c)))) (Proc.devRef .tc main_v16) = _
  entry0

theorem V4_v17 (c : Dev nD) : V4 m ρ c main_v17
    = shapeCast S1x128 (m ((c : Thread nD τ).loc main_arg6)) shapeCasts_S128_S1x128 := by
  show StableHlo.after hostOps0_3 (StableHlo.after hostOps0_2 (StableHlo.after hostOps0_1 (StableHlo.after hostOps0 (W0 m ρ c)))) (Proc.devRef .tc main_v17) = _
  entry0

/-- The gathered source rows, with the fill for rows out of range still in place. -/
theorem V4_v6_fill (c : Dev nD) : V4 m ρ c main_v6
    = select (takeMask (sources (m ((c : Thread nD τ).loc main_arg1))))
        (nodeRows (F := Ideal) (m ((c : Thread nD τ).loc main_arg0)) (sources (m ((c : Thread nD τ).loc main_arg1))))
        (broadcastInDim S640000x128 ![] bcast_S_S640000x128 (constant (F := Ideal) S_ .f32 0x7FC00000#32)) :=
  (sourceRows_any (F := Ideal) m ρ c).trans (truncf_ideal _ _)

/-- The gathered destination rows, with the fill for rows out of range still in place. -/
theorem V4_v7_fill (c : Dev nD) : V4 m ρ c main_v7
    = select (takeMask (destinations (m ((c : Thread nD τ).loc main_arg1))))
        (nodeRows (F := Ideal) (m ((c : Thread nD τ).loc main_arg0)) (destinations (m ((c : Thread nD τ).loc main_arg1))))
        (broadcastInDim S640000x128 ![] bcast_S_S640000x128 (constant (F := Ideal) S_ .f32 0x7FC00000#32)) :=
  (destinationRows_any (F := Ideal) m ρ c).trans (truncf_ideal _ _)

/-- With every source a node number, the gathered source rows are those nodes' rows. -/
theorem V4_v6 (c : Dev nD)
    (hr : ∀ i : S640000.Idx, 0 ≤ ((sources (m ((c : Thread nD τ).loc main_arg1))) i).toInt
      ∧ ((sources (m ((c : Thread nD τ).loc main_arg1))) i).toInt < 50000) :
    V4 m ρ c main_v6 = nodeRows (F := Ideal) (m ((c : Thread nD τ).loc main_arg0)) (sources (m ((c : Thread nD τ).loc main_arg1))) :=
  (V4_v6_fill m ρ c).trans (takeMask_select _ hr _ _)

/-- With every destination a node number, the gathered destination rows are those nodes' rows. -/
theorem V4_v7 (c : Dev nD)
    (hr : ∀ i : S640000.Idx, 0 ≤ ((destinations (m ((c : Thread nD τ).loc main_arg1))) i).toInt
      ∧ ((destinations (m ((c : Thread nD τ).loc main_arg1))) i).toInt < 50000) :
    V4 m ρ c main_v7 = nodeRows (F := Ideal) (m ((c : Thread nD τ).loc main_arg0)) (destinations (m ((c : Thread nD τ).loc main_arg1))) :=
  (V4_v7_fill m ρ c).trans (takeMask_select _ hr _ _)

/-! ## Buffers the message kernel does not touch, when it starts -/

theorem W4_v3 (c : Dev nD) : W4 m ρ c (Proc.devRef .tc main_v3) = destinations (m ((c : Thread nD τ).loc main_arg1)) := by
  show StableHlo.after hostOps0_3 (StableHlo.after hostOps0_2 (StableHlo.after hostOps0_1 (StableHlo.after hostOps0 (W0 m ρ c)))) (Proc.devRef .tc main_v3) = _
  entry0

theorem W4_arg0 (c : Dev nD) : W4 m ρ c (Proc.devRef .tc main_arg0) = m ((c : Thread nD τ).loc main_arg0) := by
  show StableHlo.after hostOps0_3 (StableHlo.after hostOps0_2 (StableHlo.after hostOps0_1 (StableHlo.after hostOps0 (W0 m ρ c)))) (Proc.devRef .tc main_arg0) = _
  entry0

theorem W4_arg7 (c : Dev nD) : W4 m ρ c (Proc.devRef .tc main_arg7) = m ((c : Thread nD τ).loc main_arg7) := by
  show StableHlo.after hostOps0_3 (StableHlo.after hostOps0_2 (StableHlo.after hostOps0_1 (StableHlo.after hostOps0 (W0 m ρ c)))) (Proc.devRef .tc main_arg7) = _
  entry0

theorem W4_arg8 (c : Dev nD) : W4 m ρ c (Proc.devRef .tc main_arg8) = m ((c : Thread nD τ).loc main_arg8) := by
  show StableHlo.after hostOps0_3 (StableHlo.after hostOps0_2 (StableHlo.after hostOps0_1 (StableHlo.after hostOps0 (W0 m ρ c)))) (Proc.devRef .tc main_arg8) = _
  entry0

theorem W4_arg9 (c : Dev nD) : W4 m ρ c (Proc.devRef .tc main_arg9) = m ((c : Thread nD τ).loc main_arg9) := by
  show StableHlo.after hostOps0_3 (StableHlo.after hostOps0_2 (StableHlo.after hostOps0_1 (StableHlo.after hostOps0 (W0 m ρ c)))) (Proc.devRef .tc main_arg9) = _
  entry0

theorem W4_arg10 (c : Dev nD) : W4 m ρ c (Proc.devRef .tc main_arg10) = m ((c : Thread nD τ).loc main_arg10) := by
  show StableHlo.after hostOps0_3 (StableHlo.after hostOps0_2 (StableHlo.after hostOps0_1 (StableHlo.after hostOps0 (W0 m ρ c)))) (Proc.devRef .tc main_arg10) = _
  entry0

/-! ## When the update kernel starts -/

/-- Reads a buffer of the second kernel's entry contents back to the contents the first kernel left. -/
local macro "entry1" : tactic =>
  `(tactic| (dsimp only [hostOps1_2, hostOps1_1, hostOps1]; after_results_simp))

theorem V8_v36 (c : Dev nD) : V8 m ρ c main_v36 = m ((c : Thread nD τ).loc main_arg0) := by
  show StableHlo.after hostOps1_2 (StableHlo.after hostOps1_1 (StableHlo.after hostOps1 (W5 m ρ c))) (Proc.devRef .tc main_v36) = _
  entry1
  rw [W5_of_ne m ρ c main_arg0 (by decide), W4_arg0]; rfl

theorem V8_v39 (c : Dev nD) : V8 m ρ c main_v39
    = extractStridedSlice S128x128 ![0, 0] (m ((c : Thread nD τ).loc main_arg7)) slices_S256x128_S128x128_0_0 := by
  show StableHlo.after hostOps1_2 (StableHlo.after hostOps1_1 (StableHlo.after hostOps1 (W5 m ρ c))) (Proc.devRef .tc main_v39) = _
  entry1
  rw [W5_of_ne m ρ c main_arg7 (by decide), W4_arg7]; rfl

theorem V8_v41 (c : Dev nD) : V8 m ρ c main_v41
    = extractStridedSlice S128x128 ![128, 0] (m ((c : Thread nD τ).loc main_arg7)) slices_S256x128_S128x128_128_0 := by
  show StableHlo.after hostOps1_2 (StableHlo.after hostOps1_1 (StableHlo.after hostOps1 (W5 m ρ c))) (Proc.devRef .tc main_v41) = _
  entry1
  rw [W5_of_ne m ρ c main_arg7 (by decide), W4_arg7]; rfl

theorem V8_v42 (c : Dev nD) : V8 m ρ c main_v42 = m ((c : Thread nD τ).loc main_arg9) := by
  show StableHlo.after hostOps1_2 (StableHlo.after hostOps1_1 (StableHlo.after hostOps1 (W5 m ρ c))) (Proc.devRef .tc main_v42) = _
  entry1
  rw [W5_of_ne m ρ c main_arg9 (by decide), W4_arg9]; rfl

theorem V8_v43 (c : Dev nD) : V8 m ρ c main_v43
    = shapeCast S1x128 (m ((c : Thread nD τ).loc main_arg8)) shapeCasts_S128_S1x128 := by
  show StableHlo.after hostOps1_2 (StableHlo.after hostOps1_1 (StableHlo.after hostOps1 (W5 m ρ c))) (Proc.devRef .tc main_v43) = _
  entry1
  rw [W5_of_ne m ρ c main_arg8 (by decide), W4_arg8]; rfl

theorem V8_v44 (c : Dev nD) : V8 m ρ c main_v44
    = shapeCast S1x128 (m ((c : Thread nD τ).loc main_arg10)) shapeCasts_S128_S1x128 := by
  show StableHlo.after hostOps1_2 (StableHlo.after hostOps1_1 (StableHlo.after hostOps1 (W5 m ρ c))) (Proc.devRef .tc main_v44) = _
  entry1
  rw [W5_of_ne m ρ c main_arg10 (by decide), W4_arg10]; rfl

/-- The averages the update kernel reads are the averages of what the message kernel left in its output array. -/
theorem V8_v37 (c : Dev nD) : V8 m ρ c main_v37
    = average (F := Ideal) (destinations (m ((c : Thread nD τ).loc main_arg1))) ((dat0 (V4 m ρ) c).arrAt 9 cfg0.N) := by
  have e18 : W5 m ρ c (Proc.devRef .tc main_v18) = (dat0 (V4 m ρ) c).arrAt 9 cfg0.N := W5_arr m ρ c 9
  have e3 : W5 m ρ c (Proc.devRef .tc main_v3) = destinations (m ((c : Thread nD τ).loc main_arg1)) :=
    (W5_of_ne m ρ c main_v3 (by decide)).trans (W4_v3 m ρ c)
  rw [averages_any (F := Ideal) m ρ c, truncf_ideal, e18, e3]

end Cert.GraphConv

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.LibRowMlp.lean ====
/-
  A two-layer perceptron applied row by row, with the matrix unit's product in the plain layout.

  The tiled side multiplies a block of mb rows by a weight matrix (left operand mb×k, right operand k×n, contracting
  the left's columns with the right's rows), each product into a zero accumulator, and spells its first layer as a
  sum of products with consecutive row bands of one weight matrix. The whole-array side multiplies the side-by-side
  concatenation of its operands by the whole weight matrix in one product. Floats are read as extended reals, whose
  addition is commutative and associative, so the whole product's sum over the concatenated columns splits into the
  bands' sums; no distributivity is used.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost
import proofs.«408071_j20572893348184_1_alg».proof.Proof.LibRowLayers

noncomputable section

open scoped BigOperators

namespace RowLayers

open Idealize.ShloMosaic Idealize.ShloMosaic.ValueIdx

variable {m k n : ℕ}

/-- An m×k matrix times a k×n matrix on the matrix unit, accumulated into the zero splat, at (a, b): the sum over
    the contracted coordinate c of A (a, c) · B (c, b). -/
theorem matmulPlain_apply {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  refine (Ideal.matmul_constant_zero_apply
    (⟨[1], [0], [0], [1], [], [], w⟩ : DotDims ⟨2, ![m, k]⟩ ⟨2, ![k, n]⟩ ⟨2, ![m, n]⟩) prec A B (ix2 a b)).trans ?_
  rw [← Equiv.sum_comp (contrEquiv1
    (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The host's product of an m×k matrix by a k×n matrix, at (a, b): the same sum over the contracted coordinate. -/
theorem hostDotPlain_apply {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1
      (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## A finite sum cut into consecutive bands -/

/-- A sum over t = p + q terms is the sum of its first p terms plus the sum of the q terms after them. -/
theorem sum_split2 {p q t : ℕ} (ht : p + q = t) (f : Fin t → EReal) :
    ∑ j : Fin t, f j = ∑ i : Fin p, f ⟨i.val, by omega⟩ + ∑ i : Fin q, f ⟨p + i.val, by omega⟩ := by
  subst ht
  rw [Fin.sum_univ_add]
  rfl

/-- A sum over t = p + q + s terms is the sum of its first p terms, plus the next q, plus the last s. -/
theorem sum_split3 {p q s t : ℕ} (ht : p + q + s = t) (f : Fin t → EReal) :
    ∑ j : Fin t, f j = (∑ i : Fin p, f ⟨i.val, by omega⟩ + ∑ i : Fin q, f ⟨p + i.val, by omega⟩)
      + ∑ i : Fin s, f ⟨p + q + i.val, by omega⟩ := by
  rw [sum_split2 ht f, sum_split2 (rfl : p + q = p + q) (fun i : Fin (p + q) => f ⟨i.val, by omega⟩)]

/-! ## A band of rows, and a vector made a row -/

/-- A band of p rows cut from row o of a t×n matrix reads, at (i, j), the matrix at (o + i, j). -/
theorem sliceRows_apply {α : Type} {t p : ℕ} (o : ℕ) (W : (⟨2, ![t, n]⟩ : Shape).Idx → α)
    (hs : (⟨2, ![t, n]⟩ : Shape).Slices ![o, 0] ⟨2, ![p, n]⟩) (i : Fin p) (j : Fin n) (i' : Fin t)
    (hi : i'.val = o + i.val) :
    extractStridedSlice ⟨2, ![p, n]⟩ ![o, 0] W hs (ix2 i j) = W (ix2 i' j) :=
  slice2_axis0_apply o W hs i j i' hi

/-- A vector of n entries reshaped to one row reads, at (0, j), entry j. -/
theorem reshapeRow_apply {α : Type} (b : (⟨1, ![n]⟩ : Shape).Idx → α)
    (h : (⟨1, ![n]⟩ : Shape).ShapeCasts ⟨2, ![1, n]⟩) (j : Fin n) :
    shapeCast ⟨2, ![1, n]⟩ b h (ix2 (0 : Fin 1) j) = b (ix1 j) :=
  shapeCast_a_1a_apply b h 0 j

/-! ## Three matrices laid side by side, read at an index -/

/-- Left of the first seam a three-piece side-by-side concatenation reads the first matrix. -/
theorem catCols3_apply_first {α : Type} {p q s t : ℕ}
    (h : Shape.Concatenates [(⟨2, ![m, p]⟩ : Shape), ⟨2, ![m, q]⟩, ⟨2, ![m, s]⟩] ⟨2, ![m, t]⟩ 1)
    (x : (⟨2, ![m, p]⟩ : Shape).Idx → α) (y : (⟨2, ![m, q]⟩ : Shape).Idx → α) (z : (⟨2, ![m, s]⟩ : Shape).Idx → α)
    (r : Fin m) (j : Fin t) (c : Fin p) (hc : c.val = j.val) :
    concatenate ⟨2, ![m, t]⟩ 1 [⟨⟨2, ![m, p]⟩, x⟩, ⟨⟨2, ![m, q]⟩, y⟩, ⟨⟨2, ![m, s]⟩, z⟩] h (ix2 r j) = x (ix2 r c) :=
  concatenate_apply_piece 1 [⟨⟨2, ![m, p]⟩, x⟩, ⟨⟨2, ![m, q]⟩, y⟩, ⟨⟨2, ![m, s]⟩, z⟩] h (ix2 r j) 0 (by simp) _ x rfl rfl 0
    (by simp) (ix2 r c)
    (fun ax hax => by match ax with | ⟨0, _⟩ => rfl | ⟨1, _⟩ => exact absurd rfl hax)
    (by show 0 + c.val = j.val; omega)

/-- Between the seams it reads the second matrix, p columns back. -/
theorem catCols3_apply_second {α : Type} {p q s t : ℕ}
    (h : Shape.Concatenates [(⟨2, ![m, p]⟩ : Shape), ⟨2, ![m, q]⟩, ⟨2, ![m, s]⟩] ⟨2, ![m, t]⟩ 1)
    (x : (⟨2, ![m, p]⟩ : Shape).Idx → α) (y : (⟨2, ![m, q]⟩ : Shape).Idx → α) (z : (⟨2, ![m, s]⟩ : Shape).Idx → α)
    (r : Fin m) (j : Fin t) (c : Fin q) (hc : p + c.val = j.val) :
    concatenate ⟨2, ![m, t]⟩ 1 [⟨⟨2, ![m, p]⟩, x⟩, ⟨⟨2, ![m, q]⟩, y⟩, ⟨⟨2, ![m, s]⟩, z⟩] h (ix2 r j) = y (ix2 r c) :=
  concatenate_apply_piece 1 [⟨⟨2, ![m, p]⟩, x⟩, ⟨⟨2, ![m, q]⟩, y⟩, ⟨⟨2, ![m, s]⟩, z⟩] h (ix2 r j) 1 (by simp) _ y rfl rfl p
    (by simp) (ix2 r c)
    (fun ax hax => by match ax with | ⟨0, _⟩ => rfl | ⟨1, _⟩ => exact absurd rfl hax)
    (by show p + c.val = j.val; exact hc)

/-- Right of the second seam it reads the third matrix, p + q columns back. -/
theorem catCols3_apply_third {α : Type} {p q s t : ℕ}
    (h : Shape.Concatenates [(⟨2, ![m, p]⟩ : Shape), ⟨2, ![m, q]⟩, ⟨2, ![m, s]⟩] ⟨2, ![m, t]⟩ 1)
    (x : (⟨2, ![m, p]⟩ : Shape).Idx → α) (y : (⟨2, ![m, q]⟩ : Shape).Idx → α) (z : (⟨2, ![m, s]⟩ : Shape).Idx → α)
    (r : Fin m) (j : Fin t) (c : Fin s) (hc : p + q + c.val = j.val) :
    concatenate ⟨2, ![m, t]⟩ 1 [⟨⟨2, ![m, p]⟩, x⟩, ⟨⟨2, ![m, q]⟩, y⟩, ⟨⟨2, ![m, s]⟩, z⟩] h (ix2 r j) = z (ix2 r c) :=
  concatenate_apply_piece 1 [⟨⟨2, ![m, p]⟩, x⟩, ⟨⟨2, ![m, q]⟩, y⟩, ⟨⟨2, ![m, s]⟩, z⟩] h (ix2 r j) 2 (by simp) _ z rfl rfl
    (p + q) (by simp) (ix2 r c)
    (fun ax hax => by match ax with | ⟨0, _⟩ => rfl | ⟨1, _⟩ => exact absurd rfl hax)
    (by show p + q + c.val = j.val; exact hc)

/-- A three-piece side-by-side concatenation at (r, c): the first matrix left of column p, the second up to column
    p + q, the third after it. -/
theorem catCols3_apply {α : Type} {p q s t : ℕ} (ht : p + q + s = t)
    (h : Shape.Concatenates [(⟨2, ![m, p]⟩ : Shape), ⟨2, ![m, q]⟩, ⟨2, ![m, s]⟩] ⟨2, ![m, t]⟩ 1)
    (x : (⟨2, ![m, p]⟩ : Shape).Idx → α) (y : (⟨2, ![m, q]⟩ : Shape).Idx → α) (z : (⟨2, ![m, s]⟩ : Shape).Idx → α)
    (r : Fin m) (c : Fin t) :
    concatenate ⟨2, ![m, t]⟩ 1 [⟨⟨2, ![m, p]⟩, x⟩, ⟨⟨2, ![m, q]⟩, y⟩, ⟨⟨2, ![m, s]⟩, z⟩] h (ix2 r c)
      = if h1 : c.val < p then x (ix2 r ⟨c.val, h1⟩)
        else if h2 : c.val < p + q then y (ix2 r ⟨c.val - p, by omega⟩)
        else z (ix2 r ⟨c.val - (p + q), by omega⟩) := by
  by_cases h1 : c.val < p
  · rw [dif_pos h1]
    exact catCols3_apply_first h x y z r c ⟨c.val, h1⟩ rfl
  · rw [dif_neg h1]
    by_cases h2 : c.val < p + q
    · rw [dif_pos h2]
      exact catCols3_apply_second h x y z r c ⟨c.val - p, by omega⟩ (by show p + (c.val - p) = c.val; omega)
    · rw [dif_neg h2]
      exact catCols3_apply_third h x y z r c ⟨c.val - (p + q), by omega⟩ (by show p + q + (c.val - (p + q)) = c.val; omega)

/-! ## Rows of a block against rows of the whole: the affine layers in the plain layout -/

section RowsPlain

variable {mb M : ℕ} {σ : Fin mb → Fin M}

/-- A cast of the block to its own shape changes nothing. -/
theorem Rows.shapeCastSelf {k : ℕ} {a : (⟨2, ![mb, k]⟩ : Shape).Idx → EReal} {A : (⟨2, ![M, k]⟩ : Shape).Idx → EReal}
    (h : (⟨2, ![mb, k]⟩ : Shape).ShapeCasts ⟨2, ![mb, k]⟩) (ha : Rows σ a A) :
    Rows σ (shapeCast ⟨2, ![mb, k]⟩ a h) A := by
  rw [shapeCast_self]; exact ha

/-- The affine layer x · W + b: the block's product on the matrix unit into a zero accumulator plus one row repeated
    down the block, against the host's product of the whole matrix plus the bias vector broadcast down the rows. The
    block's rows are the σ-rows of the whole matrix, the two weight matrices agree entry by entry, and the row reads
    the bias vector. -/
theorem Rows.affinePlain {k n : ℕ} {φ₁ φ₂ : FTy}
    (wt : DotDims.WF ⟨2, ![mb, k]⟩ ⟨2, ![k, n]⟩ ⟨2, ![mb, n]⟩ [1] [0] [0] [1] [] [])
    (wW : DotDims.WF ⟨2, ![M, k]⟩ ⟨2, ![k, n]⟩ ⟨2, ![M, n]⟩ [1] [0] [0] [1] [] [])
    (hsc : (⟨2, ![1, n]⟩ : Shape).ShapeCasts ⟨2, ![1, n]⟩) (hbc : (⟨2, ![1, n]⟩ : Shape).Broadcasts ⟨2, ![mb, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {x : FVec Ideal ⟨2, ![mb, k]⟩ φ₁} {X : FVec Ideal ⟨2, ![M, k]⟩ .f32} (hx : Rows σ x X)
    {w : FVec Ideal ⟨2, ![k, n]⟩ φ₂} {W : FVec Ideal ⟨2, ![k, n]⟩ .f32} (hw : ∀ (i : Fin k) (j : Fin n), w (ix2 i j) = W (ix2 i j))
    {brow : (⟨2, ![1, n]⟩ : Shape).Idx → EReal} {b : (⟨1, ![n]⟩ : Shape).Idx → EReal}
    (hb : ∀ j : Fin n, brow (ix2 (0 : Fin 1) j) = b (ix1 j)) :
    Rows σ
      (Idealize.ShloMosaic.addf
        (matmul (⟨[1], [0], [0], [1], [], [], wt⟩ : DotDims _ _ _) none x w (constant ⟨2, ![mb, n]⟩ .f32 0x00000000#32))
        (broadcastTo ⟨2, ![mb, n]⟩ (shapeCast ⟨2, ![1, n]⟩ (shapeCast ⟨2, ![1, n]⟩ brow hsc) hsc) hbc))
      (Idealize.ShloMosaic.addf (Host.dotGeneral (⟨[1], [0], [0], [1], [], [], wW⟩ : DotDims _ _ _) none X W)
        (broadcastInDim ⟨2, ![M, n]⟩ ![0, 1] h01 (broadcastInDim ⟨2, ![1, n]⟩ ![1] h1 b))) := fun r c => by
  rw [addf_apply, addf_apply, matmulPlain_apply, hostDotPlain_apply, oneRow_apply, rowDown_apply, rowBroadcast_apply, hb]
  refine congrArg (· + b (ix1 c)) (Finset.sum_congr rfl fun i _ => ?_)
  rw [hx r i, hw i c]

/-- The first layer with three operands: the sum of the three blocks' products with three consecutive row bands of
    one weight matrix (p, q and s rows, p + q + s = t), plus the bias row, against the host's one product of the
    side-by-side concatenation of the three whole matrices with the whole weight matrix, plus the bias vector. The
    host's sum over the t concatenated columns splits into the three bands' sums. The concatenation's entries are
    extended reals whatever float format χ the host's product reads them at. -/
theorem Rows.affineCat3 {p q s t n : ℕ} {φ₁ φ₂ φ₃ ψ₁ ψ₂ ψ₃ χ : FTy}
    (wt1 : DotDims.WF ⟨2, ![mb, p]⟩ ⟨2, ![p, n]⟩ ⟨2, ![mb, n]⟩ [1] [0] [0] [1] [] [])
    (wt2 : DotDims.WF ⟨2, ![mb, q]⟩ ⟨2, ![q, n]⟩ ⟨2, ![mb, n]⟩ [1] [0] [0] [1] [] [])
    (wt3 : DotDims.WF ⟨2, ![mb, s]⟩ ⟨2, ![s, n]⟩ ⟨2, ![mb, n]⟩ [1] [0] [0] [1] [] [])
    (wW : DotDims.WF ⟨2, ![M, t]⟩ ⟨2, ![t, n]⟩ ⟨2, ![M, n]⟩ [1] [0] [0] [1] [] [])
    (H : Shape.Concatenates [(⟨2, ![M, p]⟩ : Shape), ⟨2, ![M, q]⟩, ⟨2, ![M, s]⟩] ⟨2, ![M, t]⟩ 1)
    (hsc : (⟨2, ![1, n]⟩ : Shape).ShapeCasts ⟨2, ![1, n]⟩) (hbc : (⟨2, ![1, n]⟩ : Shape).Broadcasts ⟨2, ![mb, n]⟩)
    (hb1 : (⟨1, ![n]⟩ : Shape).BroadcastsInDim ⟨2, ![1, n]⟩ ![1])
    (h01 : (⟨2, ![1, n]⟩ : Shape).BroadcastsInDim ⟨2, ![M, n]⟩ ![0, 1])
    {x1 : FVec Ideal ⟨2, ![mb, p]⟩ φ₁} {X1 : (⟨2, ![M, p]⟩ : Shape).Idx → EReal} (h1 : Rows σ x1 X1)
    {x2 : FVec Ideal ⟨2, ![mb, q]⟩ φ₂} {X2 : (⟨2, ![M, q]⟩ : Shape).Idx → EReal} (h2 : Rows σ x2 X2)
    {x3 : FVec Ideal ⟨2, ![mb, s]⟩ φ₃} {X3 : (⟨2, ![M, s]⟩ : Shape).Idx → EReal} (h3 : Rows σ x3 X3)
    {w1 : FVec Ideal ⟨2, ![p, n]⟩ ψ₁} {w2 : FVec Ideal ⟨2, ![q, n]⟩ ψ₂} {w3 : FVec Ideal ⟨2, ![s, n]⟩ ψ₃}
    {W : FVec Ideal ⟨2, ![t, n]⟩ .f32}
    (hw1 : ∀ (i : Fin p) (j : Fin n) (i' : Fin t), i'.val = i.val → w1 (ix2 i j) = W (ix2 i' j))
    (hw2 : ∀ (i : Fin q) (j : Fin n) (i' : Fin t), i'.val = p + i.val → w2 (ix2 i j) = W (ix2 i' j))
    (hw3 : ∀ (i : Fin s) (j : Fin n) (i' : Fin t), i'.val = p + q + i.val → w3 (ix2 i j) = W (ix2 i' j))
    {brow : (⟨2, ![1, n]⟩ : Shape).Idx → EReal} {b : (⟨1, ![n]⟩ : Shape).Idx → EReal}
    (hb : ∀ j : Fin n, brow (ix2 (0 : Fin 1) j) = b (ix1 j)) :
    Rows σ
      (Idealize.ShloMosaic.addf
        (Idealize.ShloMosaic.addf
          (Idealize.ShloMosaic.addf
            (matmul (⟨[1], [0], [0], [1], [], [], wt1⟩ : DotDims _ _ _) none x1 w1 (constant ⟨2, ![mb, n]⟩ .f32 0x00000000#32))
            (matmul (⟨[1], [0], [0], [1], [], [], wt2⟩ : DotDims _ _ _) none x2 w2 (constant ⟨2, ![mb, n]⟩ .f32 0x00000000#32)))
          (matmul (⟨[1], [0], [0], [1], [], [], wt3⟩ : DotDims _ _ _) none x3 w3 (constant ⟨2, ![mb, n]⟩ .f32 0x00000000#32)))
        (broadcastTo ⟨2, ![mb, n]⟩ (shapeCast ⟨2, ![1, n]⟩ (shapeCast ⟨2, ![1, n]⟩ brow hsc) hsc) hbc))
      (Idealize.ShloMosaic.addf
        (Host.dotGeneral (φ₁ := χ) (⟨[1], [0], [0], [1], [], [], wW⟩ : DotDims _ _ _) none
          (concatenate ⟨2, ![M, t]⟩ 1 [⟨⟨2, ![M, p]⟩, X1⟩, ⟨⟨2, ![M, q]⟩, X2⟩, ⟨⟨2, ![M, s]⟩, X3⟩] H) W)
        (broadcastInDim ⟨2, ![M, n]⟩ ![0, 1] h01 (broadcastInDim ⟨2, ![1, n]⟩ ![1] hb1 b))) := fun r c => by
  have ht : p + q + s = t := by
    have := H.2.2; simpa [Nat.add_assoc] using this
  rw [addf_apply, addf_apply, addf_apply, addf_apply, matmulPlain_apply, matmulPlain_apply, matmulPlain_apply,
    hostDotPlain_apply, oneRow_apply, rowDown_apply, rowBroadcast_apply, hb, sum_split3 ht]
  refine congrArg (· + b (ix1 c)) ?_
  refine congrArg₂ (· + ·) (congrArg₂ (· + ·) ?_ ?_) ?_
  · refine Finset.sum_congr rfl fun i _ => ?_
    rw [catCols3_apply_first H X1 X2 X3 (σ r) ⟨i.val, by omega⟩ i rfl, h1 r i, hw1 i c ⟨i.val, by omega⟩ rfl]
  · refine Finset.sum_congr rfl fun i _ => ?_
    rw [catCols3_apply_second H X1 X2 X3 (σ r) ⟨p + i.val, by omega⟩ i rfl, h2 r i, hw2 i c ⟨p + i.val, by omega⟩ rfl]
  · refine Finset.sum_congr rfl fun i _ => ?_
    rw [catCols3_apply_third H X1 X2 X3 (σ r) ⟨p + q + i.val, by omega⟩ i rfl, h3 r i,
      hw3 i c ⟨p + q + i.val, by omega⟩ rfl]

/-- The first layer with two operands: the sum of the two blocks' products with two consecutive row bands of one
    weight matrix (p and q rows, p + q = t), plus the bias row, against the host's one product of the side-by-side
    concatenation of the two whole matrices with the whole weight matrix, plus the bias vector. -/
theorem Rows.affineCat2 {p q t n : ℕ} {φ₁ φ₂ ψ₁ ψ₂ χ : FTy}
    (wt1 : DotDims.WF ⟨2, ![mb, p]⟩ ⟨2, ![p, n]⟩ ⟨2, ![mb, n]⟩ [1] [0] [0] [1] [] [])
    (wt2 : DotDims.WF ⟨2, ![mb, q]⟩ ⟨2, ![q, n]⟩ ⟨2, ![mb, n]⟩ [1] [0] [0] [1] [] [])
    (wW : DotDims.WF ⟨2, ![M, t]⟩ ⟨2, ![t, n]⟩ ⟨2, ![M, n]⟩ [1] [0] [0] [1] [] [])
    (H : Shape.Concatenates [(⟨2, ![M, p]⟩ : Shape), ⟨2, ![M, q]⟩] ⟨2, ![M, t]⟩ 1)
    (hsc : (⟨2, ![1, n]⟩ : Shape).ShapeCasts ⟨2, ![1, n]⟩) (hbc : (⟨2, ![1, n]⟩ : Shape).Broadcasts ⟨2, ![mb, n]⟩)
    (hb1 : (⟨1, ![n]⟩ : Shape).BroadcastsInDim ⟨2, ![1, n]⟩ ![1])
    (h01 : (⟨2, ![1, n]⟩ : Shape).BroadcastsInDim ⟨2, ![M, n]⟩ ![0, 1])
    {x1 : FVec Ideal ⟨2, ![mb, p]⟩ φ₁} {X1 : (⟨2, ![M, p]⟩ : Shape).Idx → EReal} (h1 : Rows σ x1 X1)
    {x2 : FVec Ideal ⟨2, ![mb, q]⟩ φ₂} {X2 : (⟨2, ![M, q]⟩ : Shape).Idx → EReal} (h2 : Rows σ x2 X2)
    {w1 : FVec Ideal ⟨2, ![p, n]⟩ ψ₁} {w2 : FVec Ideal ⟨2, ![q, n]⟩ ψ₂} {W : FVec Ideal ⟨2, ![t, n]⟩ .f32}
    (hw1 : ∀ (i : Fin p) (j : Fin n) (i' : Fin t), i'.val = i.val → w1 (ix2 i j) = W (ix2 i' j))
    (hw2 : ∀ (i : Fin q) (j : Fin n) (i' : Fin t), i'.val = p + i.val → w2 (ix2 i j) = W (ix2 i' j))
    {brow : (⟨2, ![1, n]⟩ : Shape).Idx → EReal} {b : (⟨1, ![n]⟩ : Shape).Idx → EReal}
    (hb : ∀ j : Fin n, brow (ix2 (0 : Fin 1) j) = b (ix1 j)) :
    Rows σ
      (Idealize.ShloMosaic.addf
        (Idealize.ShloMosaic.addf
          (matmul (⟨[1], [0], [0], [1], [], [], wt1⟩ : DotDims _ _ _) none x1 w1 (constant ⟨2, ![mb, n]⟩ .f32 0x00000000#32))
          (matmul (⟨[1], [0], [0], [1], [], [], wt2⟩ : DotDims _ _ _) none x2 w2 (constant ⟨2, ![mb, n]⟩ .f32 0x00000000#32)))
        (broadcastTo ⟨2, ![mb, n]⟩ (shapeCast ⟨2, ![1, n]⟩ (shapeCast ⟨2, ![1, n]⟩ brow hsc) hsc) hbc))
      (Idealize.ShloMosaic.addf
        (Host.dotGeneral (φ₁ := χ) (⟨[1], [0], [0], [1], [], [], wW⟩ : DotDims _ _ _) none
          (concatenate ⟨2, ![M, t]⟩ 1 [⟨⟨2, ![M, p]⟩, X1⟩, ⟨⟨2, ![M, q]⟩, X2⟩] H) W)
        (broadcastInDim ⟨2, ![M, n]⟩ ![0, 1] h01 (broadcastInDim ⟨2, ![1, n]⟩ ![1] hb1 b))) := fun r c => by
  have ht : p + q = t := by
    have := H.2.2; simpa using this
  rw [addf_apply, addf_apply, addf_apply, matmulPlain_apply, matmulPlain_apply,
    hostDotPlain_apply, oneRow_apply, rowDown_apply, rowBroadcast_apply, hb, sum_split2 ht]
  refine congrArg (· + b (ix1 c)) ?_
  refine congrArg₂ (· + ·) ?_ ?_
  · refine Finset.sum_congr rfl fun i _ => ?_
    rw [catCols_left H X1 X2 (σ r) ⟨i.val, by omega⟩ i rfl, h1 r i, hw1 i c ⟨i.val, by omega⟩ rfl]
  · refine Finset.sum_congr rfl fun i _ => ?_
    rw [catCols_right H X1 X2 (σ r) ⟨p + i.val, by omega⟩ i (by show i.val + p = p + i.val; omega), h2 r i,
      hw2 i c ⟨p + i.val, by omega⟩ rfl]

end RowsPlain

end RowLayers

end
-- ==== Proof.Tiles.lean ====
/-
  What each kernel stores for a block of rows is that block of rows of the whole-array layer.
-/
import proofs.«408071_j20572893348184_1_alg».proof.Proof.LibRowLayers
import proofs.«408071_j20572893348184_1_alg».proof.Proof.LibRowMlp
import proofs.«408071_j20572893348184_1_alg».proof.Proof.Whole
import proofs.«408071_j20572893348184_1_alg».proof.Proof.Gen.KernelIdeal.Skeleton

noncomputable section

open scoped BigOperators

namespace Cert.GraphConv

open Idealize.ShloMosaic Idealize.ShloMosaic.ValueIdx RowLayers
open Cert.KernelIdeal.Gen

variable [hK : Cert.KernelIdeal.Facts] [hR : Cert.ReferenceIdeal.Facts]

/-- The message kernel's value on a block of 5120 edges, against the messages of all the edges: if the block's three
    feature operands are the σ-rows of the three whole arrays, its three weight operands the three bands of 128 rows of
    the first layer's matrix, its bias rows the bias vectors and its second weight operand the second layer's matrix,
    then what the body stores is the σ-rows of the messages. The sum over the 384 concatenated features is the sum of
    the three sums over 128 (addition of extended reals is commutative and associative). -/
theorem rows_message {σ : Fin 5120 → Fin 640000}
    (x0 x1 x2 : Vec Ideal Cert.KernelIdeal.S5120x128 .bf16) (x3 x4 x5 x7 : Vec Ideal Cert.KernelIdeal.S128x128 .bf16)
    (x6 x8 : Vec Ideal Cert.KernelIdeal.S1x128 .f32)
    (A B E : FVec Ideal Cert.ReferenceIdeal.S640000x128 .f32) (W1 : FVec Ideal Cert.ReferenceIdeal.S384x128 .f32)
    (b1 : FVec Ideal Cert.ReferenceIdeal.S128 .f32) (W2 : FVec Ideal Cert.ReferenceIdeal.S128x128 .f32)
    (b2 : FVec Ideal Cert.ReferenceIdeal.S128 .f32)
    (h0 : Rows σ x0 A) (h1 : Rows σ x1 B) (h2 : Rows σ x2 E)
    (h3 : ∀ (i : Fin 128) (j : Fin 128) (i' : Fin 384), i'.val = i.val → x3 (ix2 i j) = W1 (ix2 i' j))
    (h4 : ∀ (i : Fin 128) (j : Fin 128) (i' : Fin 384), i'.val = 128 + i.val → x4 (ix2 i j) = W1 (ix2 i' j))
    (h5 : ∀ (i : Fin 128) (j : Fin 128) (i' : Fin 384), i'.val = 128 + 128 + i.val → x5 (ix2 i j) = W1 (ix2 i' j))
    (h6 : ∀ j : Fin 128, x6 (ix2 (0 : Fin 1) j) = b1 (ix1 j))
    (h7 : ∀ (i : Fin 128) (j : Fin 128), x7 (ix2 i j) = W2 (ix2 i j))
    (h8 : ∀ j : Fin 128, x8 (ix2 (0 : Fin 1) j) = b2 (ix1 j)) :
    Rows σ (k0_pay1 (F := Ideal) x0 x3 x1 x4 x2 x5 x6 x7 x8) (messages (F := Ideal) A B E W1 b1 W2 b2) := by
  unfold k0_pay1 messages
  dsimp only
  refine Rows.affinePlain _ _ _ _ _ _
    (Rows.truncf _ (Rows.relu _ (Rows.affineCat3 _ _ _ _ _ _ _ _ _
      (Rows.shapeCastSelf _ h0) (Rows.shapeCastSelf _ h1) (Rows.shapeCastSelf _ h2) ?_ ?_ ?_ h6))) ?_ h8
  · intro i j i' hi; rw [shapeCast_self]; exact h3 i j i' hi
  · intro i j i' hi; rw [shapeCast_self]; exact h4 i j i' hi
  · intro i j i' hi; rw [shapeCast_self]; exact h5 i j i' hi
  · intro i j; rw [shapeCast_self]; exact h7 i j

/-- The update kernel's value on a block of 2000 nodes, against the update of all the nodes: the same statement with two
    feature operands (the node's features and its average) and the two bands of the 256-row matrix. -/
theorem rows_update {σ : Fin 2000 → Fin 50000}
    (x0 x1 : Vec Ideal Cert.KernelIdeal.S2000x128 .bf16) (x2 x3 x5 : Vec Ideal Cert.KernelIdeal.S128x128 .bf16)
    (x4 x6 : Vec Ideal Cert.KernelIdeal.S1x128 .f32)
    (X G : FVec Ideal Cert.ReferenceIdeal.S50000x128 .f32) (U1 : FVec Ideal Cert.ReferenceIdeal.S256x128 .f32)
    (c1 : FVec Ideal Cert.ReferenceIdeal.S128 .f32) (U2 : FVec Ideal Cert.ReferenceIdeal.S128x128 .f32)
    (c2 : FVec Ideal Cert.ReferenceIdeal.S128 .f32)
    (h0 : Rows σ x0 X) (h1 : Rows σ x1 G)
    (h2 : ∀ (i : Fin 128) (j : Fin 128) (i' : Fin 256), i'.val = i.val → x2 (ix2 i j) = U1 (ix2 i' j))
    (h3 : ∀ (i : Fin 128) (j : Fin 128) (i' : Fin 256), i'.val = 128 + i.val → x3 (ix2 i j) = U1 (ix2 i' j))
    (h4 : ∀ j : Fin 128, x4 (ix2 (0 : Fin 1) j) = c1 (ix1 j))
    (h5 : ∀ (i : Fin 128) (j : Fin 128), x5 (ix2 i j) = U2 (ix2 i j))
    (h6 : ∀ j : Fin 128, x6 (ix2 (0 : Fin 1) j) = c2 (ix1 j)) :
    Rows σ (k1_pay1 (F := Ideal) x0 x2 x1 x3 x4 x5 x6) (update (F := Ideal) X G U1 c1 U2 c2) := by
  unfold k1_pay1 update
  dsimp only
  refine Rows.affinePlain _ _ _ _ _ _
    (Rows.truncf _ (Rows.relu _ (Rows.affineCat2 _ _ _ _ _ _ _ _
      (Rows.shapeCastSelf _ h0) (Rows.shapeCastSelf _ h1) ?_ ?_ h4))) ?_ h6
  · intro i j i' hi; rw [shapeCast_self]; exact h2 i j i' hi
  · intro i j i' hi; rw [shapeCast_self]; exact h3 i j i' hi
  · intro i j; rw [shapeCast_self]; exact h5 i j

end Cert.GraphConv

end
-- ==== Proof.Region0.lean ====
/-
  The message kernel's region. Its grid has 125 points; point t works on edges 5120·t … 5120·t + 5119: it reads those
  rows of the three feature arrays and the whole of the six small operands, and writes those rows of the output. So after
  the region the output array holds, row by row, the messages of all 640000 edges.
-/
import proofs.«408071_j20572893348184_1_alg».proof.Proof.Tiles
import proofs.«408071_j20572893348184_1_alg».proof.Proof.Gen.KernelIdeal.Frame
import Idealize.ShloMosaic.Lib.Pipeline.Value

set_option maxRecDepth 16384

noncomputable section

namespace Cert.GraphConv.Region0

open Idealize.ShloMosaic Idealize.ShloMosaic.TcCoe Idealize.ShloMosaic.ValueIdx RowLayers
open Cert.KernelIdeal Cert.KernelIdeal.Gen
open Idealize.ShloMosaic.Pipeline (Dat)

variable [hR : Cert.ReferenceIdeal.Facts]

variable (V : (c : Dev nD) → (b : Ref sig .tc) → Buf (Elt Ideal) ((c : Thread nD τ).loc b))

theorem hz : (![0, 0] : Fin 2 → Nat) = fun _ => 0 := funext fun a => by fin_cases a <;> rfl

/-- The printed block-index maps over the grid: the four windows of 5120 rows are at block (t, 0), the six small ones
    at block (0, 0). -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem lt125 (t : Fin cfg0.N) : t.val < 125 := lt_of_lt_of_eq t.isLt N_0

/-- Row p of point t's block is edge 5120·t + p. -/
def σ (t : Fin cfg0.N) : Fin 5120 → Fin 640000 := fun p => ⟨5120 * t.val + p.val, by have := lt125 t; have := p.isLt; omega⟩

/-- The blocks of the three feature windows are the σ-rows of their arrays. -/
theorem rows_in0 (c : Dev nD) (t : Fin cfg0.N) : Rows (σ t) (iblk0 V c 0 t) (V c main_v6) := fun p j => by
  obtain ⟨e0, e1, -⟩ := idx t
  show V c main_v6 (((cfg0.win 0).blk t).view.emb (ix2 p j)) = V c main_v6 (ix2 (σ t p) j)
  refine congrArg _ (funext fun a => Fin.ext ?_)
  match a with
  | ⟨0, _⟩ => show win0_0.index t (0 : Fin 2) * 5120 + 1 * p.val = 5120 * t.val + p.val; omega
  | ⟨1, _⟩ => show win0_0.index t (1 : Fin 2) * 128 + 1 * j.val = j.val; omega

theorem rows_in1 (c : Dev nD) (t : Fin cfg0.N) : Rows (σ t) (iblk0 V c 1 t) (V c main_v7) := fun p j => by
  obtain ⟨-, -, e0, e1, -⟩ := idx t
  show V c main_v7 (((cfg0.win 1).blk t).view.emb (ix2 p j)) = V c main_v7 (ix2 (σ t p) j)
  refine congrArg _ (funext fun a => Fin.ext ?_)
  match a with
  | ⟨0, _⟩ => show win0_1.index t (0 : Fin 2) * 5120 + 1 * p.val = 5120 * t.val + p.val; omega
  | ⟨1, _⟩ => show win0_1.index t (1 : Fin 2) * 128 + 1 * j.val = j.val; omega

theorem rows_in2 (c : Dev nD) (t : Fin cfg0.N) : Rows (σ t) (iblk0 V c 2 t) (V c main_v8) := fun p j => by
  obtain ⟨-, -, -, -, e0, e1, -⟩ := idx t
  show V c main_v8 (((cfg0.win 2).blk t).view.emb (ix2 p j)) = V c main_v8 (ix2 (σ t p) j)
  refine congrArg _ (funext fun a => Fin.ext ?_)
  match a with
  | ⟨0, _⟩ => show win0_2.index t (0 : Fin 2) * 5120 + 1 * p.val = 5120 * t.val + p.val; omega
  | ⟨1, _⟩ => show win0_2.index t (1 : Fin 2) * 128 + 1 * j.val = j.val; omega

/-- The block of a small window is its whole array. -/
theorem whole3 (c : Dev nD) (t : Fin cfg0.N) (i j : Fin 128) : iblk0 V c 3 t (ix2 i j) = V c main_v10 (ix2 i j) := by
  obtain ⟨-, -, -, -, -, -, -, -, e0, e1, -⟩ := idx t
  show V c main_v10 (((cfg0.win 3).blk t).view.emb (ix2 i j)) = V c main_v10 (ix2 i j)
  refine congrArg _ (funext fun a => Fin.ext ?_)
  match a with
  | ⟨0, _⟩ => show win0_3.index t (0 : Fin 2) * 128 + 1 * i.val = i.val; omega
  | ⟨1, _⟩ => show win0_3.index t (1 : Fin 2) * 128 + 1 * j.val = j.val; omega

theorem whole4 (c : Dev nD) (t : Fin cfg0.N) (i j : Fin 128) : iblk0 V c 4 t (ix2 i j) = V c main_v12 (ix2 i j) := by
  obtain ⟨-, -, -, -, -, -, -, -, -, -, e0, e1, -⟩ := idx t
  show V c main_v12 (((cfg0.win 4).blk t).view.emb (ix2 i j)) = V c main_v12 (ix2 i j)
  refine congrArg _ (funext fun a => Fin.ext ?_)
  match a with
  | ⟨0, _⟩ => show win0_4.index t (0 : Fin 2) * 128 + 1 * i.val = i.val; omega
  | ⟨1, _⟩ => show win0_4.index t (1 : Fin 2) * 128 + 1 * j.val = j.val; omega

theorem whole5 (c : Dev nD) (t : Fin cfg0.N) (i j : Fin 128) : iblk0 V c 5 t (ix2 i j) = V c main_v14 (ix2 i j) := by
  obtain ⟨-, -, -, -, -, -, -, -, -, -, -, -, e0, e1, -⟩ := idx t
  show V c main_v14 (((cfg0.win 5).blk t).view.emb (ix2 i j)) = V c main_v14 (ix2 i j)
  refine congrArg _ (funext fun a => Fin.ext ?_)
  match a with
  | ⟨0, _⟩ => show win0_5.index t (0 : Fin 2) * 128 + 1 * i.val = i.val; omega
  | ⟨1, _⟩ => show win0_5.index t (1 : Fin 2) * 128 + 1 * j.val = j.val; omega

theorem whole6 (c : Dev nD) (t : Fin cfg0.N) (j : Fin 128) : iblk0 V c 6 t (ix2 (0 : Fin 1) j) = V c main_v16 (ix2 (0 : Fin 1) j) := by
  obtain ⟨-, -, -, -, -, -, -, -, -, -, -, -, -, -, e0, e1, -⟩ := idx t
  show V c main_v16 (((cfg0.win 6).blk t).view.emb (ix2 (0 : Fin 1) j)) = V c main_v16 (ix2 (0 : Fin 1) j)
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * j.val = j.val; omega

theorem whole7 (c : Dev nD) (t : Fin cfg0.N) (i j : Fin 128) : iblk0 V c 7 t (ix2 i j) = V c main_v15 (ix2 i j) := by
  obtain ⟨-, -, -, -, -, -, -, -, -, -, -, -, -, -, -, -, e0, e1, -⟩ := idx t
  show V c main_v15 (((cfg0.win 7).blk t).view.emb (ix2 i j)) = V c main_v15 (ix2 i j)
  refine congrArg _ (funext fun a => Fin.ext ?_)
  match a with
  | ⟨0, _⟩ => show win0_7.index t (0 : Fin 2) * 128 + 1 * i.val = i.val; omega
  | ⟨1, _⟩ => show win0_7.index t (1 : Fin 2) * 128 + 1 * j.val = j.val; omega

theorem whole8 (c : Dev nD) (t : Fin cfg0.N) (j : Fin 128) : iblk0 V c 8 t (ix2 (0 : Fin 1) j) = V c main_v17 (ix2 (0 : Fin 1) j) := by
  obtain ⟨-, -, -, -, -, -, -, -, -, -, -, -, -, -, -, -, -, -, e0, e1⟩ := idx t
  show V c main_v17 (((cfg0.win 8).blk t).view.emb (ix2 (0 : Fin 1) j)) = V c main_v17 (ix2 (0 : Fin 1) j)
  refine congrArg _ (funext fun a => Fin.ext ?_)
  match a with
  | ⟨0, _⟩ => show win0_8.index t (0 : Fin 2) * 1 + 1 * 0 = 0; omega
  | ⟨1, _⟩ => show win0_8.index t (1 : Fin 2) * 128 + 1 * j.val = j.val; omega

/-- A block of 5120 rows that is the σ-rows of a whole array is the output window's block of that array. -/
theorem read_of_rows (t : Fin cfg0.N) {b : S5120x128.Idx → EReal} {G : S640000x128.Idx → EReal} (h : Rows (σ t) b G) :
    b = ((cfg0.win 9).blk t).view.read (Elt Ideal) G := by
  funext y
  obtain ⟨p, j, rfl⟩ : ∃ (p : Fin 5120) (j : Fin 128), y = ix2 p j := ⟨y 0, y 1, eq_ix2 y⟩
  obtain ⟨-, -, -, -, -, -, e0, e1, -⟩ := idx t
  show b (ix2 p j) = G (((cfg0.win 9).blk t).view.emb (ix2 p j))
  rw [h p j]
  refine congrArg _ (funext fun a => Fin.ext ?_)
  match a with
  | ⟨0, _⟩ => show 5120 * t.val + p.val = win0_9.index t (0 : Fin 2) * 5120 + 1 * p.val; omega
  | ⟨1, _⟩ => show j.val = win0_9.index t (1 : Fin 2) * 128 + 1 * j.val; omega

/-- What point t writes back is block t of the messages computed from the arrays as the region finds them. -/
theorem flushed_eq (c : Dev nD) (t : Fin cfg0.N)
    (W1 : FVec Ideal Cert.ReferenceIdeal.S384x128 .f32) (b1 : FVec Ideal Cert.ReferenceIdeal.S128 .f32)
    (W2 : FVec Ideal Cert.ReferenceIdeal.S128x128 .f32) (b2 : FVec Ideal Cert.ReferenceIdeal.S128 .f32)
    (H3 : ∀ (i : Fin 128) (j : Fin 128) (i' : Fin 384), i'.val = i.val → V c main_v10 (ix2 i j) = W1 (ix2 i' j))
    (H4 : ∀ (i : Fin 128) (j : Fin 128) (i' : Fin 384), i'.val = 128 + i.val → V c main_v12 (ix2 i j) = W1 (ix2 i' j))
    (H5 : ∀ (i : Fin 128) (j : Fin 128) (i' : Fin 384), i'.val = 128 + 128 + i.val → V c main_v14 (ix2 i j) = W1 (ix2 i' j))
    (H6 : ∀ j : Fin 128, V c main_v16 (ix2 (0 : Fin 1) j) = b1 (ix1 j))
    (H7 : ∀ (i : Fin 128) (j : Fin 128), V c main_v15 (ix2 i j) = W2 (ix2 i j))
    (H8 : ∀ j : Fin 128, V c main_v17 (ix2 (0 : Fin 1) j) = b2 (ix1 j)) :
    (dat0 V c).flushed 9 t
      = ((cfg0.win 9).blk t).view.read (Elt Ideal) (messages (F := Ideal) (V c main_v6) (V c main_v7) (V c main_v8) W1 b1 W2 b2) := by
  show (cfg0.win 9).cut (grid0.coords t) ((dat0 V c).after 9 t) = _
  rw [after0_9]
  unfold out0_9
  rw [View.canon_unit_zero hz]
  simp only [View.ld_unit_zero (S := S5120x128) hz, View.ld_unit_zero (S := S128x128) hz, View.ld_unit_zero (S := S1x128) hz]
  exact read_of_rows t (rows_message (σ := σ t) (iblk0 V c 0 t) (iblk0 V c 1 t) (iblk0 V c 2 t) (iblk0 V c 3 t) (iblk0 V c 4 t)
    (iblk0 V c 5 t) (iblk0 V c 7 t) (iblk0 V c 6 t) (iblk0 V c 8 t) (V c main_v6) (V c main_v7) (V c main_v8) W1 b1 W2 b2
    (rows_in0 V c t) (rows_in1 V c t) (rows_in2 V c t)
    (fun i j i' hi => (whole3 V c t i j).trans (H3 i j i' hi))
    (fun i j i' hi => (whole4 V c t i j).trans (H4 i j i' hi))
    (fun i j i' hi => (whole5 V c t i j).trans (H5 i j i' hi))
    (fun j => (whole6 V c t j).trans (H6 j))
    (fun i j => (whole7 V c t i j).trans (H7 i j))
    (fun j => (whole8 V c t j).trans (H8 j)))

/-- An edge row is in point t's block iff it lies in that block's 5120 rows. -/
theorem mem_blk (t : Fin cfg0.N) (i : S640000x128.Idx) :
    i ∈ ((cfg0.win 9).blk t).view.set ↔ ∀ a : Fin 2, win0_9.index t a * S5120x128.size a ≤ (i a).val ∧ (i a).val < win0_9.index t a * S5120x128.size a + S5120x128.size a := by
  show i ∈ ((View.whole main_v18).slice (win0_9.rect t)).set ↔ _
  rw [View.set_slice_whole, Rect.mem_set_unit]
  exact Iff.rfl

/-- Every edge row is in the block of the point numbered by the row over 5120. -/
theorem cover (i : S640000x128.Idx) : ∃ t : Fin cfg0.N, (cfg0.win 9).flush t = true ∧ i ∈ ((cfg0.win 9).blk t).view.set := by
  have hi0 : (i 0).val < 640000 := (i 0).isLt
  have hi1 : (i 1).val < 128 := (i 1).isLt
  have ht : (i 0).val / 5120 < cfg0.N := lt_of_lt_of_eq (show (i 0).val / 5120 < 125 by omega) N_0.symm
  obtain ⟨-, -, -, -, -, -, e0, e1, -⟩ := idx ⟨(i 0).val / 5120, ht⟩
  refine ⟨⟨(i 0).val / 5120, ht⟩, flush0_9 _, ?_⟩
  rw [mem_blk]
  intro a
  match a with
  | ⟨0, _⟩ =>
    show win0_9.index ⟨(i 0).val / 5120, ht⟩ (0 : Fin 2) * 5120 ≤ (i 0).val ∧ (i 0).val < win0_9.index ⟨(i 0).val / 5120, ht⟩ (0 : Fin 2) * 5120 + 5120
    rw [e0]; show (i 0).val / 5120 * 5120 ≤ (i 0).val ∧ (i 0).val < (i 0).val / 5120 * 5120 + 5120; omega
  | ⟨1, _⟩ =>
    show win0_9.index ⟨(i 0).val / 5120, ht⟩ (1 : Fin 2) * 128 ≤ (i 1).val ∧ (i 1).val < win0_9.index ⟨(i 0).val / 5120, ht⟩ (1 : Fin 2) * 128 + 128
    rw [e1]; omega

/-- After the region the output array holds the messages of all the edges. -/
theorem final (c : Dev nD)
    (W1 : FVec Ideal Cert.ReferenceIdeal.S384x128 .f32) (b1 : FVec Ideal Cert.ReferenceIdeal.S128 .f32)
    (W2 : FVec Ideal Cert.ReferenceIdeal.S128x128 .f32) (b2 : FVec Ideal Cert.ReferenceIdeal.S128 .f32)
    (H3 : ∀ (i : Fin 128) (j : Fin 128) (i' : Fin 384), i'.val = i.val → V c main_v10 (ix2 i j) = W1 (ix2 i' j))
    (H4 : ∀ (i : Fin 128) (j : Fin 128) (i' : Fin 384), i'.val = 128 + i.val → V c main_v12 (ix2 i j) = W1 (ix2 i' j))
    (H5 : ∀ (i : Fin 128) (j : Fin 128) (i' : Fin 384), i'.val = 128 + 128 + i.val → V c main_v14 (ix2 i j) = W1 (ix2 i' j))
    (H6 : ∀ j : Fin 128, V c main_v16 (ix2 (0 : Fin 1) j) = b1 (ix1 j))
    (H7 : ∀ (i : Fin 128) (j : Fin 128), V c main_v15 (ix2 i j) = W2 (ix2 i j))
    (H8 : ∀ j : Fin 128, V c main_v17 (ix2 (0 : Fin 1) j) = b2 (ix1 j)) :
    (dat0 V c).arrAt 9 cfg0.N = messages (F := Ideal) (V c main_v6) (V c main_v7) (V c main_v8) W1 b1 W2 b2 :=
  (dat0 V c).arrAt_eq_of_cover 9 _ (fun t _ => flushed_eq V c t W1 b1 W2 b2 H3 H4 H5 H6 H7 H8) cover

end Cert.GraphConv.Region0

end
-- ==== Proof.Region1.lean ====
/-
  The update kernel's region. Its grid has 25 points; point t works on nodes 2000·t … 2000·t + 1999: it reads those rows
  of the node features and of the averages and the whole of the five small operands, and writes those rows of the output.
  So after the region the output array holds, row by row, the new features of all 50000 nodes.
-/
import proofs.«408071_j20572893348184_1_alg».proof.Proof.Tiles
import proofs.«408071_j20572893348184_1_alg».proof.Proof.Gen.KernelIdeal.Frame
import Idealize.ShloMosaic.Lib.Pipeline.Value

set_option maxRecDepth 16384

noncomputable section

namespace Cert.GraphConv.Region1

open Idealize.ShloMosaic Idealize.ShloMosaic.TcCoe Idealize.ShloMosaic.ValueIdx RowLayers
open Cert.KernelIdeal Cert.KernelIdeal.Gen
open Idealize.ShloMosaic.Pipeline (Dat)

variable [hR : Cert.ReferenceIdeal.Facts]

variable (V : (c : Dev nD) → (b : Ref sig .tc) → Buf (Elt Ideal) ((c : Thread nD τ).loc b))

theorem hz : (![0, 0] : Fin 2 → Nat) = fun _ => 0 := funext fun a => by fin_cases a <;> rfl

/-- The printed block-index maps over the grid: the three windows of 2000 rows are at block (t, 0), the five small ones
    at block (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem lt25 (t : Fin cfg1.N) : t.val < 25 := lt_of_lt_of_eq t.isLt N_1

/-- Row p of point t's block is node 2000·t + p. -/
def σ (t : Fin cfg1.N) : Fin 2000 → Fin 50000 := fun p => ⟨2000 * t.val + p.val, by have := lt25 t; have := p.isLt; omega⟩

/-- The blocks of the two feature windows are the σ-rows of their arrays. -/
theorem rows_in0 (c : Dev nD) (t : Fin cfg1.N) : Rows (σ t) (iblk1 V c 0 t) (V c main_v36) := fun p j => by
  obtain ⟨e0, e1, -⟩ := idx t
  show V c main_v36 (((cfg1.win 0).blk t).view.emb (ix2 p j)) = V c main_v36 (ix2 (σ t p) j)
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * j.val = j.val; omega

theorem rows_in1 (c : Dev nD) (t : Fin cfg1.N) : Rows (σ t) (iblk1 V c 1 t) (V c main_v37) := fun p j => by
  obtain ⟨-, -, e0, e1, -⟩ := idx t
  show V c main_v37 (((cfg1.win 1).blk t).view.emb (ix2 p j)) = V c main_v37 (ix2 (σ t p) j)
  refine congrArg _ (funext fun a => Fin.ext ?_)
  match a with
  | ⟨0, _⟩ => show win1_1.index t (0 : Fin 2) * 2000 + 1 * p.val = 2000 * t.val + p.val; omega
  | ⟨1, _⟩ => show win1_1.index t (1 : Fin 2) * 128 + 1 * j.val = j.val; omega

/-- The block of a small window is its whole array. -/
theorem whole2 (c : Dev nD) (t : Fin cfg1.N) (i j : Fin 128) : iblk1 V c 2 t (ix2 i j) = V c main_v39 (ix2 i j) := by
  obtain ⟨-, -, -, -, -, -, e0, e1, -⟩ := idx t
  show V c main_v39 (((cfg1.win 2).blk t).view.emb (ix2 i j)) = V c main_v39 (ix2 i j)
  refine congrArg _ (funext fun a => Fin.ext ?_)
  match a with
  | ⟨0, _⟩ => show win1_2.index t (0 : Fin 2) * 128 + 1 * i.val = i.val; omega
  | ⟨1, _⟩ => show win1_2.index t (1 : Fin 2) * 128 + 1 * j.val = j.val; omega

theorem whole3 (c : Dev nD) (t : Fin cfg1.N) (i j : Fin 128) : iblk1 V c 3 t (ix2 i j) = V c main_v41 (ix2 i j) := by
  obtain ⟨-, -, -, -, -, -, -, -, e0, e1, -⟩ := idx t
  show V c main_v41 (((cfg1.win 3).blk t).view.emb (ix2 i j)) = V c main_v41 (ix2 i j)
  refine congrArg _ (funext fun a => Fin.ext ?_)
  match a with
  | ⟨0, _⟩ => show win1_3.index t (0 : Fin 2) * 128 + 1 * i.val = i.val; omega
  | ⟨1, _⟩ => show win1_3.index t (1 : Fin 2) * 128 + 1 * j.val = j.val; omega

theorem whole4 (c : Dev nD) (t : Fin cfg1.N) (j : Fin 128) : iblk1 V c 4 t (ix2 (0 : Fin 1) j) = V c main_v43 (ix2 (0 : Fin 1) j) := by
  obtain ⟨-, -, -, -, -, -, -, -, -, -, e0, e1, -⟩ := idx t
  show V c main_v43 (((cfg1.win 4).blk t).view.emb (ix2 (0 : Fin 1) j)) = V c main_v43 (ix2 (0 : Fin 1) j)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * j.val = j.val; omega

theorem whole5 (c : Dev nD) (t : Fin cfg1.N) (i j : Fin 128) : iblk1 V c 5 t (ix2 i j) = V c main_v42 (ix2 i j) := by
  obtain ⟨-, -, -, -, -, -, -, -, -, -, -, -, e0, e1, -⟩ := idx t
  show V c main_v42 (((cfg1.win 5).blk t).view.emb (ix2 i j)) = V c main_v42 (ix2 i j)
  refine congrArg _ (funext fun a => Fin.ext ?_)
  match a with
  | ⟨0, _⟩ => show win1_5.index t (0 : Fin 2) * 128 + 1 * i.val = i.val; omega
  | ⟨1, _⟩ => show win1_5.index t (1 : Fin 2) * 128 + 1 * j.val = j.val; omega

theorem whole6 (c : Dev nD) (t : Fin cfg1.N) (j : Fin 128) : iblk1 V c 6 t (ix2 (0 : Fin 1) j) = V c main_v44 (ix2 (0 : Fin 1) j) := by
  obtain ⟨-, -, -, -, -, -, -, -, -, -, -, -, -, -, e0, e1⟩ := idx t
  show V c main_v44 (((cfg1.win 6).blk t).view.emb (ix2 (0 : Fin 1) j)) = V c main_v44 (ix2 (0 : Fin 1) j)
  refine congrArg _ (funext fun a => Fin.ext ?_)
  match a with
  | ⟨0, _⟩ => show win1_6.index t (0 : Fin 2) * 1 + 1 * 0 = 0; omega
  | ⟨1, _⟩ => show win1_6.index t (1 : Fin 2) * 128 + 1 * j.val = j.val; omega

/-- A block of 2000 rows that is the σ-rows of a whole array is the output window's block of that array. -/
theorem read_of_rows (t : Fin cfg1.N) {b : S2000x128.Idx → EReal} {G : S50000x128.Idx → EReal} (h : Rows (σ t) b G) :
    b = ((cfg1.win 7).blk t).view.read (Elt Ideal) G := by
  funext y
  obtain ⟨p, j, rfl⟩ : ∃ (p : Fin 2000) (j : Fin 128), y = ix2 p j := ⟨y 0, y 1, eq_ix2 y⟩
  obtain ⟨-, -, -, -, e0, e1, -⟩ := idx t
  show b (ix2 p j) = G (((cfg1.win 7).blk t).view.emb (ix2 p j))
  rw [h p j]
  refine congrArg _ (funext fun a => Fin.ext ?_)
  match a with
  | ⟨0, _⟩ => show 2000 * t.val + p.val = win1_7.index t (0 : Fin 2) * 2000 + 1 * p.val; omega
  | ⟨1, _⟩ => show j.val = win1_7.index t (1 : Fin 2) * 128 + 1 * j.val; omega

/-- What point t writes back is block t of the update computed from the arrays as the region finds them. -/
theorem flushed_eq (c : Dev nD) (t : Fin cfg1.N)
    (U1 : FVec Ideal Cert.ReferenceIdeal.S256x128 .f32) (c1 : FVec Ideal Cert.ReferenceIdeal.S128 .f32)
    (U2 : FVec Ideal Cert.ReferenceIdeal.S128x128 .f32) (c2 : FVec Ideal Cert.ReferenceIdeal.S128 .f32)
    (H2 : ∀ (i : Fin 128) (j : Fin 128) (i' : Fin 256), i'.val = i.val → V c main_v39 (ix2 i j) = U1 (ix2 i' j))
    (H3 : ∀ (i : Fin 128) (j : Fin 128) (i' : Fin 256), i'.val = 128 + i.val → V c main_v41 (ix2 i j) = U1 (ix2 i' j))
    (H4 : ∀ j : Fin 128, V c main_v43 (ix2 (0 : Fin 1) j) = c1 (ix1 j))
    (H5 : ∀ (i : Fin 128) (j : Fin 128), V c main_v42 (ix2 i j) = U2 (ix2 i j))
    (H6 : ∀ j : Fin 128, V c main_v44 (ix2 (0 : Fin 1) j) = c2 (ix1 j)) :
    (dat1 V c).flushed 7 t
      = ((cfg1.win 7).blk t).view.read (Elt Ideal) (update (F := Ideal) (V c main_v36) (V c main_v37) U1 c1 U2 c2) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x128) hz, View.ld_unit_zero (S := S1x128) hz]
  exact read_of_rows t (rows_update (σ := σ t) (iblk1 V c 0 t) (iblk1 V c 1 t) (iblk1 V c 2 t) (iblk1 V c 3 t) (iblk1 V c 5 t)
    (iblk1 V c 4 t) (iblk1 V c 6 t) (V c main_v36) (V c main_v37) U1 c1 U2 c2
    (rows_in0 V c t) (rows_in1 V c t)
    (fun i j i' hi => (whole2 V c t i j).trans (H2 i j i' hi))
    (fun i j i' hi => (whole3 V c t i j).trans (H3 i j i' hi))
    (fun j => (whole4 V c t j).trans (H4 j))
    (fun i j => (whole5 V c t i j).trans (H5 i j))
    (fun j => (whole6 V c t j).trans (H6 j)))

/-- A node row is in point t's block iff it lies in that block's 2000 rows. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v45).slice (win1_7.rect t)).set ↔ _
  rw [View.set_slice_whole, Rect.mem_set_unit]
  exact Iff.rfl

/-- Every node row is in the block of the point numbered by the row over 2000. -/
theorem cover (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have ht : (i 0).val / 2000 < cfg1.N := lt_of_lt_of_eq (show (i 0).val / 2000 < 25 by omega) N_1.symm
  obtain ⟨-, -, -, -, e0, e1, -⟩ := idx ⟨(i 0).val / 2000, ht⟩
  refine ⟨⟨(i 0).val / 2000, ht⟩, flush1_7 _, ?_⟩
  rw [mem_blk]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, ht⟩ (1 : Fin 2) * 128 ≤ (i 1).val ∧ (i 1).val < win1_7.index ⟨(i 0).val / 2000, ht⟩ (1 : Fin 2) * 128 + 128
    rw [e1]; omega

/-- After the region the output array holds the new features of all the nodes. -/
theorem final (c : Dev nD)
    (U1 : FVec Ideal Cert.ReferenceIdeal.S256x128 .f32) (c1 : FVec Ideal Cert.ReferenceIdeal.S128 .f32)
    (U2 : FVec Ideal Cert.ReferenceIdeal.S128x128 .f32) (c2 : FVec Ideal Cert.ReferenceIdeal.S128 .f32)
    (H2 : ∀ (i : Fin 128) (j : Fin 128) (i' : Fin 256), i'.val = i.val → V c main_v39 (ix2 i j) = U1 (ix2 i' j))
    (H3 : ∀ (i : Fin 128) (j : Fin 128) (i' : Fin 256), i'.val = 128 + i.val → V c main_v41 (ix2 i j) = U1 (ix2 i' j))
    (H4 : ∀ j : Fin 128, V c main_v43 (ix2 (0 : Fin 1) j) = c1 (ix1 j))
    (H5 : ∀ (i : Fin 128) (j : Fin 128), V c main_v42 (ix2 i j) = U2 (ix2 i j))
    (H6 : ∀ j : Fin 128, V c main_v44 (ix2 (0 : Fin 1) j) = c2 (ix1 j)) :
    (dat1 V c).arrAt 7 cfg1.N = update (F := Ideal) (V c main_v36) (V c main_v37) U1 c1 U2 c2 :=
  (dat1 V c).arrAt_eq_of_cover 7 _ (fun t _ => flushed_eq V c t U1 c1 U2 c2 H2 H3 H4 H5 H6) cover

end Cert.GraphConv.Region1

end
-- ==== Proof.KernelValue.lean ====
/-
  The kernel program's result is the layer of its arguments, when every entry of the edge list is a node number: the update
  kernel's region leaves the update of the node features and of the averages; the averages are those of what the message
  kernel's region left, which is the messages of the gathered rows; and with every index in range the gathered rows are
  the rows of the nodes the edges name.
-/
import proofs.«408071_j20572893348184_1_alg».proof.Proof.HostK
import proofs.«408071_j20572893348184_1_alg».proof.Proof.Region0
import proofs.«408071_j20572893348184_1_alg».proof.Proof.Region1
import proofs.«408071_j20572893348184_1_alg».proof.Proof.LibRowMlp

set_option maxRecDepth 16384

noncomputable section

namespace Cert.GraphConv

open Idealize.ShloMosaic Idealize.ShloMosaic.TcCoe Idealize.ShloMosaic.ValueIdx RowLayers
open Cert.KernelIdeal Cert.KernelIdeal.Gen

variable [hR : Cert.ReferenceIdeal.Facts]

variable (m : (ℓ : Loc nD τ sig) → Buf (Elt Ideal) ℓ) (ρ : Dev nD → PrngReg)

/-- What the message kernel's region leaves in its output array. -/
theorem messages_left (c : Dev nD)
    (hs : ∀ i : S640000.Idx, 0 ≤ ((sources (m ((c : Thread nD τ).loc main_arg1))) i).toInt
      ∧ ((sources (m ((c : Thread nD τ).loc main_arg1))) i).toInt < 50000)
    (hd : ∀ i : S640000.Idx, 0 ≤ ((destinations (m ((c : Thread nD τ).loc main_arg1))) i).toInt
      ∧ ((destinations (m ((c : Thread nD τ).loc main_arg1))) i).toInt < 50000) :
    (dat0 (V4 m ρ) c).arrAt 9 cfg0.N
      = messages (F := Ideal)
          (nodeRows (m ((c : Thread nD τ).loc main_arg0)) (sources (m ((c : Thread nD τ).loc main_arg1))))
          (nodeRows (m ((c : Thread nD τ).loc main_arg0)) (destinations (m ((c : Thread nD τ).loc main_arg1))))
          (m ((c : Thread nD τ).loc main_arg2)) (m ((c : Thread nD τ).loc main_arg3)) (m ((c : Thread nD τ).loc main_arg4))
          (m ((c : Thread nD τ).loc main_arg5)) (m ((c : Thread nD τ).loc main_arg6)) := by
  have h := Region0.final (V4 m ρ) c (m ((c : Thread nD τ).loc main_arg3)) (m ((c : Thread nD τ).loc main_arg4))
    (m ((c : Thread nD τ).loc main_arg5)) (m ((c : Thread nD τ).loc main_arg6))
    (fun i j i' hi => by rw [V4_v10]; exact sliceRows_apply 0 _ _ i j i' (by omega))
    (fun i j i' hi => by rw [V4_v12]; exact sliceRows_apply 128 _ _ i j i' (by omega))
    (fun i j i' hi => by rw [V4_v14]; exact sliceRows_apply 256 _ _ i j i' (by omega))
    (fun j => by rw [V4_v16]; exact reshapeRow_apply _ _ j)
    (fun i j => by rw [V4_v15])
    (fun j => by rw [V4_v17]; exact reshapeRow_apply _ _ j)
  rw [h, V4_v6 m ρ c hs, V4_v7 m ρ c hd, V4_v8]

/-- What the update kernel's region leaves in the result buffer. -/
theorem result_value (c : Dev nD)
    (hs : ∀ i : S640000.Idx, 0 ≤ ((sources (m ((c : Thread nD τ).loc main_arg1))) i).toInt
      ∧ ((sources (m ((c : Thread nD τ).loc main_arg1))) i).toInt < 50000)
    (hd : ∀ i : S640000.Idx, 0 ≤ ((destinations (m ((c : Thread nD τ).loc main_arg1))) i).toInt
      ∧ ((destinations (m ((c : Thread nD τ).loc main_arg1))) i).toInt < 50000) :
    W9 m ρ c (Proc.devRef .tc main_v45)
      = layer (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  have e45 : W9 m ρ c (Proc.devRef .tc main_v45) = (dat1 (V8 m ρ) c).arrAt 7 cfg1.N := W9_arr m ρ c 7
  have h := Region1.final (V8 m ρ) c (m ((c : Thread nD τ).loc main_arg7)) (m ((c : Thread nD τ).loc main_arg8))
    (m ((c : Thread nD τ).loc main_arg9)) (m ((c : Thread nD τ).loc main_arg10))
    (fun i j i' hi => by rw [V8_v39]; exact sliceRows_apply 0 _ _ i j i' (by omega))
    (fun i j i' hi => by rw [V8_v41]; exact sliceRows_apply 128 _ _ i j i' (by omega))
    (fun j => by rw [V8_v43]; exact reshapeRow_apply _ _ j)
    (fun i j => by rw [V8_v42])
    (fun j => by rw [V8_v44]; exact reshapeRow_apply _ _ j)
  rw [e45, h, V8_v36, V8_v37, messages_left m ρ c hs hd]
  rfl

end Cert.GraphConv

end
-- ==== Proof.RefRun.lean ====
/-
  The reference's run: every fair execution of the reference ends with its result at the whole layer of the arguments.
-/
import proofs.«408071_j20572893348184_1_alg».proof.Defs
import proofs.«408071_j20572893348184_1_alg».proof.Proof.ReferenceRun
import proofs.«408071_j20572893348184_1_alg».proof.Proof.Whole

noncomputable section

namespace Cert.GraphConv

open Idealize.ShloMosaic Idealize.SL.Sem Cert.ReferenceIdeal

variable {F : FTy → Type} [FloatOps F]

/-- The composed term of the reference's operations is the layer of the eleven arguments. -/
theorem reference_term (m : (ℓ : Loc nD τ sig) → Buf (Elt F) ℓ) (c : Dev nD) :
    Cert.ReferenceIdeal.Value.res_main_v54 m c
      = layer (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v54 layer update average inDegree messages nodeRows sources destinations
  rfl

end Cert.GraphConv

end
-- ==== Proof.lean ====
/-
  The certificate of one message-passing layer on a graph (50000 nodes, 640000 edges, 128 features): the kernel program
  (two gathers, a message perceptron as a kernel over blocks of 5120 edges, a scatter-mean, an update perceptron as a kernel
  over blocks of 2000 nodes) against the whole-array reference, floats read as extended reals.

  Both programs compute the same layer. The kernel narrows its matrix operands to a shorter float format, which is the
  identity on extended reals, and computes each perceptron's first layer as a sum of products with the 128-row bands of
  the weight matrix where the reference multiplies the side-by-side concatenation by the whole matrix: the sum over the
  concatenated columns is the sum of the bands' sums, addition of extended reals being commutative and associative (no
  finiteness is used). The kernel's gather fills rows whose index is out of range, where the reference's reads the nearest
  row; under the stated range of the edge list (every entry a node number) no row is filled.
-/
import proofs.«408071_j20572893348184_1_alg».proof.Defs
import proofs.«408071_j20572893348184_1_alg».proof.Proof.Gen.Kernel
import proofs.«408071_j20572893348184_1_alg».proof.Proof.Gen.Kernel.Skeleton
import proofs.«408071_j20572893348184_1_alg».proof.Proof.Gen.Kernel.Launch
import proofs.«408071_j20572893348184_1_alg».proof.Proof.Gen.Kernel.Points
import proofs.«408071_j20572893348184_1_alg».proof.Proof.Gen.Kernel.Frame
import proofs.«408071_j20572893348184_1_alg».proof.Proof.Gen.KernelIdeal
import proofs.«408071_j20572893348184_1_alg».proof.Proof.Gen.KernelIdeal.Skeleton
import proofs.«408071_j20572893348184_1_alg».proof.Proof.Gen.KernelIdeal.Launch
import proofs.«408071_j20572893348184_1_alg».proof.Proof.Gen.KernelIdeal.Points
import proofs.«408071_j20572893348184_1_alg».proof.Proof.Gen.KernelIdeal.Frame
import proofs.«408071_j20572893348184_1_alg».proof.Proof.Gen.ReferenceIdeal
import proofs.«408071_j20572893348184_1_alg».proof.Proof.Gen.Pre_finite_inputs
import proofs.«408071_j20572893348184_1_alg».proof.Proof.KernelRun
import proofs.«408071_j20572893348184_1_alg».proof.Proof.KernelValue
import proofs.«408071_j20572893348184_1_alg».proof.Proof.RefRun
import Idealize.ShloMosaic.Adequacy
import Idealize.ShloMosaic.Init

noncomputable section

namespace Cert.Proof

open Idealize.ShloMosaic Idealize.SL.Sem Cert.GraphConv

/-- The word-level kernel program runs and leaves its arguments as they were. -/
theorem frame_k : Cert.frame_Kernel := fun m ρ _ => Cert.Kernel.Gen.frame m ρ

/-- So does the kernel program read over extended reals. -/
theorem frame_ki : Cert.frame_KernelIdeal := fun m ρ _ => Cert.KernelIdeal.Gen.frame m ρ

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs end with the same result: the layer of the arguments. The sources and the destinations of the
    edges are rows of the edge list, whose entries the precondition puts in range. -/
theorem algebraic : Cert.algebraic_KernelIdeal_ReferenceIdeal := by
  intro m ρ m' ρ' hpre hagree
  refine ⟨fun c => layer (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩) (kernel_run (F := Ideal) m ρ)
    exact result_value m ρ c
      (endpoints_inRange _ _ _ _ _ _ _ _ _ _ _ (hpre c) 0 Cert.KernelIdeal.Facts₀.slices_S2x640000_S1x640000_0_0)
      (endpoints_inRange _ _ _ _ _ _ _ _ _ _ _ (hpre c) 1 Cert.KernelIdeal.Facts₀.slices_S2x640000_S1x640000_1_0)
  · refine (θ_run Cert.ReferenceIdeal.defs _ _).mono (fun r h c => ⟨(h c).1.trans ?_, (h c).2⟩)
      (Cert.ReferenceIdeal.Value.run (F := Ideal) m' ρ')
    rw [reference_term m' c]
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
